-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000x128 : Shape := ⟨2, ![400000, 128]⟩
abbrev S400000x2 : Shape := ⟨2, ![400000, 2]⟩
abbrev S384x128 : Shape := ⟨2, ![384, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x384 .f32) (main_arg6 : FVec F S384 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x384 .f32 := Host.absf main_arg5
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : FVec F S400000x128 .f32) (main_arg2 : IVec S400000x2 32) (main_arg3 : FVec F S384x128 .f32) (main_arg4 : FVec F S128 .f32) (main_arg5 : FVec F S128x384 .f32) (main_arg6 : FVec F S384 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S400000x128 : Shape := ⟨2, ![400000, 128]⟩
abbrev S400000x2 : Shape := ⟨2, ![400000, 2]⟩
abbrev S384x128 : Shape := ⟨2, ![384, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S400000x1 : Shape := ⟨2, ![400000, 1]⟩
abbrev S400000 : Shape := ⟨1, ![400000]⟩
abbrev S_ : Shape := ⟨0, ![]⟩
abbrev S1x128 : Shape := ⟨2, ![1, 128]⟩
abbrev S1x384 : Shape := ⟨2, ![1, 384]⟩
abbrev S3200x128 : Shape := ⟨2, ![3200, 128]⟩
abbrev S3200x384 : Shape := ⟨2, ![3200, 384]⟩
abbrev S100000 : Shape := ⟨1, ![100000]⟩
abbrev S100000x1 : Shape := ⟨2, ![100000, 1]⟩
abbrev S5000x128 : Shape := ⟨2, ![5000, 128]⟩

abbrev nBuf : Space → Nat
  | .hbm => 102
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S400000x2, .i32⟩
  | .hbm, ⟨3, _⟩ => ⟨S384x128, .f32⟩
  | .hbm, ⟨4, _⟩ => ⟨S128, .f32⟩
  | .hbm, ⟨5, _⟩ => ⟨S128x384, .f32⟩
  | .hbm, ⟨6, _⟩ => ⟨S384, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S400000x1, .i32⟩
  | .hbm, ⟨12, _⟩ => ⟨S400000, .i32⟩
  | .hbm, ⟨13, _⟩ => ⟨S400000x1, .i32⟩
  | .hbm, ⟨14, _⟩ => ⟨S400000, .i32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S400000x128, .bf16⟩
  | .hbm, ⟨34, _⟩ => ⟨S400000x128, .bf16⟩
  | .hbm, ⟨35, _⟩ => ⟨S400000x128, .bf16⟩
  | .hbm, ⟨36, _⟩ => ⟨S384x128, .bf16⟩
  | .hbm, ⟨37, _⟩ => ⟨S128x384, .bf16⟩
  | .hbm, ⟨38, _⟩ => ⟨S1x128, .f32⟩
  | .hbm, ⟨39, _⟩ => ⟨S1x384, .f32⟩
  | .hbm, ⟨40, _⟩ => ⟨S400000x128, .f32⟩
  | .hbm, ⟨41, _⟩ => ⟨S400000x128, .f32⟩
  | .hbm, ⟨42, _⟩ => ⟨S400000x128, .f32⟩
  | .hbm, ⟨43, _⟩ => ⟨S_, .f32⟩
  | .hbm, ⟨44, _⟩ => ⟨S100000x128, .f32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S100000x128, .f32⟩
  | .hbm, ⟨54, _⟩ => ⟨S_, .i32⟩
  | .hbm, ⟨55, _⟩ => ⟨S400000, .i32⟩
  | .hbm, ⟨56, _⟩ => ⟨S400000, .i1⟩
  | .hbm, ⟨57, _⟩ => ⟨S_, .i32⟩
  | .hbm, ⟨58, _⟩ => ⟨S400000, .i32⟩
  | .hbm, ⟨59, _⟩ => ⟨S400000, .i32⟩
  | .hbm, ⟨60, _⟩ => ⟨S400000, .i32⟩
  | .hbm, ⟨61, _⟩ => ⟨S400000x1, .i32⟩
  | .hbm, ⟨62, _⟩ => ⟨S100000x128, .f32⟩
  | .hbm, ⟨63, _⟩ => ⟨S_, .f32⟩
  | .hbm, ⟨64, _⟩ => ⟨S400000, .f32⟩
  | .hbm, ⟨65, _⟩ => ⟨S_, .f32⟩
  | .hbm, ⟨66, _⟩ => ⟨S100000, .f32⟩
  | .hbm, ⟨67, _⟩ => ⟨S_, .i32⟩
  | .hbm, ⟨68, _⟩ => ⟨S400000, .i32⟩
  | .hbm, ⟨69, _⟩ => ⟨S400000, .i1⟩
  | .hbm, ⟨70, _⟩ => ⟨S_, .i32⟩
  | .hbm, ⟨71, _⟩ => ⟨S400000, .i32⟩
  | .hbm, ⟨72, _⟩ => ⟨S400000, .i32⟩
  | .hbm, ⟨73, _⟩ => ⟨S400000, .i32⟩
  | .hbm, ⟨74, _⟩ => ⟨S400000x1, .i32⟩
  | .hbm, ⟨75, _⟩ => ⟨S100000, .f32⟩
  | .hbm, ⟨76, _⟩ => ⟨S_, .i32⟩
  | .hbm, ⟨77, _⟩ => ⟨S400000, .i32⟩
  | .hbm, ⟨78, _⟩ => ⟨S400000, .i1⟩
  | .hbm, ⟨79, _⟩ => ⟨S_, .i32⟩
  | .hbm, ⟨80, _⟩ => ⟨S400000, .i32⟩
  | .hbm, ⟨81, _⟩ => ⟨S400000, .i32⟩
  | .hbm, ⟨82, _⟩ => ⟨S400000, .i32⟩
  | .hbm, ⟨83, _⟩ => ⟨S400000x1, .i32⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S100000x128, .bf16⟩
  | .hbm, ⟨97, _⟩ => ⟨S128x128, .bf16⟩
  | .hbm, ⟨98, _⟩ => ⟨S128x128, .bf16⟩
  | .hbm, ⟨99, _⟩ => ⟨S1x128, .f32⟩
  | .hbm, ⟨100, _⟩ => ⟨S1x128, .f32⟩
  | .hbm, ⟨101, _⟩ => ⟨S100000x128, .f32⟩
  | .local _ .vmem, ⟨0, _⟩ => ⟨S3200x128, .bf16⟩
  | .local _ .vmem, ⟨1, _⟩ => ⟨S3200x128, .bf16⟩
  | .local _ .vmem, ⟨2, _⟩ => ⟨S3200x128, .bf16⟩
  | .local _ .vmem, ⟨3, _⟩ => ⟨S3200x128, .bf16⟩
  | .local _ .vmem, ⟨4, _⟩ => ⟨S3200x128, .bf16⟩
  | .local _ .vmem, ⟨5, _⟩ => ⟨S3200x128, .bf16⟩
  | .local _ .vmem, ⟨6, _⟩ => ⟨S384x128, .bf16⟩
  | .local _ .vmem, ⟨7, _⟩ => ⟨S1x128, .f32⟩
  | .local _ .vmem, ⟨8, _⟩ => ⟨S128x384, .bf16⟩
  | .local _ .vmem, ⟨9, _⟩ => ⟨S1x384, .f32⟩
  | .local _ .vmem, ⟨10, _⟩ => ⟨S3200x128, .f32⟩
  | .local _ .vmem, ⟨11, _⟩ => ⟨S3200x128, .f32⟩
  | .local _ .vmem, ⟨12, _⟩ => ⟨S3200x128, .f32⟩
  | .local _ .vmem, ⟨13, _⟩ => ⟨S3200x128, .f32⟩
  | .local _ .vmem, ⟨14, _⟩ => ⟨S3200x128, .f32⟩
  | .local _ .vmem, ⟨15, _⟩ => ⟨S3200x128, .f32⟩
  | .local _ .vmem, ⟨16, _⟩ => ⟨S5000x128, .bf16⟩
  | .local _ .vmem, ⟨17, _⟩ => ⟨S5000x128, .bf16⟩
  | .local _ .vmem, ⟨18, _⟩ => ⟨S128x128, .bf16⟩
  | .local _ .vmem, ⟨19, _⟩ => ⟨S1x128, .f32⟩
  | .local _ .vmem, ⟨20, _⟩ => ⟨S128x128, .bf16⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_v25_2 : Ref sig .tc := ⟨.hbm, 42, rfl⟩
abbrev main_cst : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_cst_14 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3200x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3200x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  bitsLt_bf16_f32 : FTy.bits .bf16 < FTy.bits .f32
  shapeCasts_S128_S1x128 : S128.ShapeCasts S1x128
  shapeCasts_S384_S1x384 : S384.ShapeCasts S1x384
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  concatenates_S3200x128_S3200x128_S3200x128_S3200x384_d1 : Shape.Concatenates [S3200x128, S3200x128, S3200x128] S3200x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S3200x384 : S1x384.Broadcasts S3200x384
  slices_S3200x384_o0_0_S3200x128 : S3200x384.Slices ![0, 0] S3200x128
  slices_S3200x384_o0_128_S3200x128 : S3200x384.Slices ![0, 128] S3200x128
  slices_S3200x384_o0_256_S3200x128 : S3200x384.Slices ![0, 256] S3200x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  gather_S100000x128_S400000x1_S400000x128_1_0_n_n_0_1_1128_wf : GatherDims.WF S100000x128 S400000x1 S400000x128 [1] [0] [] [0] [] 1 ![1, 128]
  dot_S3200x384_S384x128_S3200x128_1_0_0_1_n_n_wf : DotDims.WF S3200x384 S384x128 S3200x128 [1] [0] [0] [1] [] []
  dot_S3200x128_S128x384_S3200x384_1_0_0_1_n_n_wf : DotDims.WF S3200x128 S128x384 S3200x384 [1] [0] [0] [1] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S400000x128.size a
  hwx0_0 : ∀ i : grid0.Coords, EltTy.bits .bf16 = 32 ∨ (Rect.block (s := S400000x128) S3200x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S400000x128.size a
  hwx0_1 : ∀ i : grid0.Coords, EltTy.bits .bf16 = 32 ∨ (Rect.block (s := S400000x128) S3200x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S400000x128.size a
  hwx0_2 : ∀ i : grid0.Coords, EltTy.bits .bf16 = 32 ∨ (Rect.block (s := S400000x128) S3200x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .bf16 = 32 ∨ (Rect.block (s := S384x128) S384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .bf16 = 32 ∨ (Rect.block (s := S128x384) S128x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x128.size a ≤ S400000x128.size a
  hwx0_7 : ∀ i : grid0.Coords, EltTy.bits .f32 = 32 ∨ (Rect.block (s := S400000x128) S3200x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x128.size a ≤ S400000x128.size a
  hwx0_8 : ∀ i : grid0.Coords, EltTy.bits .f32 = 32 ∨ (Rect.block (s := S400000x128) S3200x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3200x128.size a ≤ S400000x128.size a
  hwx0_9 : ∀ i : grid0.Coords, EltTy.bits .f32 = 32 ∨ (Rect.block (s := S400000x128) S3200x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S3200x384_S384x128_S3200x128_1_0_0_1_n_n : DotDims S3200x384 S384x128 S3200x128 where
  lhsContracting := [1]
  rhsContracting := [0]
  lhsNonContracting := [0]
  rhsNonContracting := [1]
  lhsBatch := []
  rhsBatch := []
  wf := dot_S3200x384_S384x128_S3200x128_1_0_0_1_n_n_wf
def dot_S3200x128_S128x384_S3200x384_1_0_0_1_n_n : DotDims S3200x128 S128x384 S3200x384 where
  lhsContracting := [1]
  rhsContracting := [0]
  lhsNonContracting := [0]
  rhsNonContracting := [1]
  lhsBatch := []
  rhsBatch := []
  wf := dot_S3200x128_S128x384_S3200x384_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_0) S3200x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_1) S3200x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v25_2) S3200x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v61) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S400000x128 : Shape := ⟨2, ![400000, 128]⟩
abbrev S400000x2 : Shape := ⟨2, ![400000, 2]⟩
abbrev S384x128 : Shape := ⟨2, ![384, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S400000x1 : Shape := ⟨2, ![400000, 1]⟩
abbrev S400000 : Shape := ⟨1, ![400000]⟩
abbrev S_ : Shape := ⟨0, ![]⟩
abbrev S400000x384 : Shape := ⟨2, ![400000, 384]⟩
abbrev S1x128 : Shape := ⟨2, ![1, 128]⟩
abbrev S1x384 : Shape := ⟨2, ![1, 384]⟩
abbrev S100000 : Shape := ⟨1, ![100000]⟩
abbrev S100000x1 : Shape := ⟨2, ![100000, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S400000x2, .i32⟩
  | .hbm, ⟨3, _⟩ => ⟨S384x128, .f32⟩
  | .hbm, ⟨4, _⟩ => ⟨S128, .f32⟩
  | .hbm, ⟨5, _⟩ => ⟨S128x384, .f32⟩
  | .hbm, ⟨6, _⟩ => ⟨S384, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S400000x1, .i32⟩
  | .hbm, ⟨12, _⟩ => ⟨S400000, .i32⟩
  | .hbm, ⟨13, _⟩ => ⟨S400000x1, .i32⟩
  | .hbm, ⟨14, _⟩ => ⟨S400000, .i32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S400000x384, .f32⟩
  | .hbm, ⟨34, _⟩ => ⟨S400000x128, .f32⟩
  | .hbm, ⟨35, _⟩ => ⟨S1x128, .f32⟩
  | .hbm, ⟨36, _⟩ => ⟨S400000x128, .f32⟩
  | .hbm, ⟨37, _⟩ => ⟨S400000x128, .f32⟩
  | .hbm, ⟨38, _⟩ => ⟨S_, .f32⟩
  | .hbm, ⟨39, _⟩ => ⟨S400000x128, .f32⟩
  | .hbm, ⟨40, _⟩ => ⟨S400000x128, .f32⟩
  | .hbm, ⟨41, _⟩ => ⟨S400000x384, .f32⟩
  | .hbm, ⟨42, _⟩ => ⟨S1x384, .f32⟩
  | .hbm, ⟨43, _⟩ => ⟨S400000x384, .f32⟩
  | .hbm, ⟨44, _⟩ => ⟨S400000x384, .f32⟩
  | .hbm, ⟨45, _⟩ => ⟨S_, .f32⟩
  | .hbm, ⟨46, _⟩ => ⟨S400000x384, .f32⟩
  | .hbm, ⟨47, _⟩ => ⟨S400000x384, .f32⟩
  | .hbm, ⟨48, _⟩ => ⟨S400000x128, .f32⟩
  | .hbm, ⟨49, _⟩ => ⟨S400000x128, .f32⟩
  | .hbm, ⟨50, _⟩ => ⟨S400000x128, .f32⟩
  | .hbm, ⟨51, _⟩ => ⟨S_, .f32⟩
  | .hbm, ⟨52, _⟩ => ⟨S100000x128, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S100000x128, .f32⟩
  | .hbm, ⟨62, _⟩ => ⟨S_, .i32⟩
  | .hbm, ⟨63, _⟩ => ⟨S400000, .i32⟩
  | .hbm, ⟨64, _⟩ => ⟨S400000, .i1⟩
  | .hbm, ⟨65, _⟩ => ⟨S_, .i32⟩
  | .hbm, ⟨66, _⟩ => ⟨S400000, .i32⟩
  | .hbm, ⟨67, _⟩ => ⟨S400000, .i32⟩
  | .hbm, ⟨68, _⟩ => ⟨S400000, .i32⟩
  | .hbm, ⟨69, _⟩ => ⟨S400000x1, .i32⟩
  | .hbm, ⟨70, _⟩ => ⟨S100000x128, .f32⟩
  | .hbm, ⟨71, _⟩ => ⟨S_, .f32⟩
  | .hbm, ⟨72, _⟩ => ⟨S400000, .f32⟩
  | .hbm, ⟨73, _⟩ => ⟨S_, .f32⟩
  | .hbm, ⟨74, _⟩ => ⟨S100000, .f32⟩
  | .hbm, ⟨75, _⟩ => ⟨S_, .i32⟩
  | .hbm, ⟨76, _⟩ => ⟨S400000, .i32⟩
  | .hbm, ⟨77, _⟩ => ⟨S400000, .i1⟩
  | .hbm, ⟨78, _⟩ => ⟨S_, .i32⟩
  | .hbm, ⟨79, _⟩ => ⟨S400000, .i32⟩
  | .hbm, ⟨80, _⟩ => ⟨S400000, .i32⟩
  | .hbm, ⟨81, _⟩ => ⟨S400000, .i32⟩
  | .hbm, ⟨82, _⟩ => ⟨S400000x1, .i32⟩
  | .hbm, ⟨83, _⟩ => ⟨S100000, .f32⟩
  | .hbm, ⟨84, _⟩ => ⟨S_, .i32⟩
  | .hbm, ⟨85, _⟩ => ⟨S400000, .i32⟩
  | .hbm, ⟨86, _⟩ => ⟨S400000, .i1⟩
  | .hbm, ⟨87, _⟩ => ⟨S_, .i32⟩
  | .hbm, ⟨88, _⟩ => ⟨S400000, .i32⟩
  | .hbm, ⟨89, _⟩ => ⟨S400000, .i32⟩
  | .hbm, ⟨90, _⟩ => ⟨S400000, .i32⟩
  | .hbm, ⟨91, _⟩ => ⟨S400000x1, .i32⟩
  | .hbm, ⟨92, _⟩ => ⟨S100000, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S100000, .f32⟩
  | .hbm, ⟨97, _⟩ => ⟨S100000, .f32⟩
  | .hbm, ⟨98, _⟩ => ⟨S_, .f32⟩
  | .hbm, ⟨99, _⟩ => ⟨S100000, .f32⟩
  | .hbm, ⟨100, _⟩ => ⟨S100000, .f32⟩
  | .hbm, ⟨101, _⟩ => ⟨S100000x1, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S1x128, .f32⟩
  | .hbm, ⟨113, _⟩ => ⟨S100000x128, .f32⟩
  | .hbm, ⟨114, _⟩ => ⟨S100000x128, .f32⟩
  | .hbm, ⟨115, _⟩ => ⟨S_, .f32⟩
  | .hbm, ⟨116, _⟩ => ⟨S100000x128, .f32⟩
  | .hbm, ⟨117, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_c_3 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_c_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call3_cst : Ref sig .tc := ⟨.hbm, 108, rfl⟩
abbrev main_call3_v0 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_call4_cst : Ref sig .tc := ⟨.hbm, 115, rfl⟩
abbrev main_call4_v0 : Ref sig .tc := ⟨.hbm, 116, rfl⟩
abbrev main_v76 : Ref sig .tc := ⟨.hbm, 117, rfl⟩

abbrev nD : Nat := 1
abbrev τ : Topo := Topo.v7x

variable {F : FTy → Type} [FloatOps F]

class Facts₀ : Prop where
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  bcast_S_S400000x384 : S_.BroadcastsInDim S400000x384 (![] : Fin 0 → Fin S400000x384.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  gather_S100000x128_S400000x1_S400000x128_1_0_n_n_0_1_1128_wf : GatherDims.WF S100000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x384_S400000x384_1_0_0_1_n_n_wf : DotDims.WF S400000x128 S128x384 S400000x384 [1] [0] [0] [1] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S100000x128_S128x128_S100000x128_1_0_0_1_n_n_wf : DotDims.WF S100000x128 S128x128 S100000x128 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x384_S400000x384_1_0_0_1_n_n : DotDims S400000x128 S128x384 S400000x384 where
  lhsContracting := [1]
  rhsContracting := [0]
  lhsNonContracting := [0]
  rhsNonContracting := [1]
  lhsBatch := []
  rhsBatch := []
  wf := dot_S400000x128_S128x384_S400000x384_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.LibDenseRelu.lean ====
/-
  A dense layer followed by a rectifier, read one output entry at a time at the ideal values.

  Entry `j` of a row `x` pushed through the layer is `max (Σ_k x k · w (k, j) + b j) z`, where `z` is the rectifier's
  level (the value of the zero pattern in the printed programs). Two spellings of the layer are read to that form: the
  kernel's — a matrix product into the zero accumulator, a one-row bias broadcast over the rows, a maximum against a
  splat — and the host's — `dot_general`, the bias broadcast in two steps, a maximum against a broadcast constant. Both
  are stated with the plain dimension numbers `M × K` by `K × N` at ANY extents, so they read a whole array and a
  block of its rows alike: the row of the operand is the only thing an output row depends on.
-/
import Idealize.ShloMosaic.PureOps.Ideal.Laws
import Idealize.ShloMosaic.Lib.ValueIdx
import Idealize.ShloMosaic.Lib.Pipeline.Value
import proofs.«120035_j88923002896582_1_alg».proof.Proof.LibPlainDot

noncomputable section

namespace Idealize.ShloMosaic.DenseRelu

open Idealize.ShloMosaic Idealize.ShloMosaic.ValueIdx

/-- Entry `j` of the row `x` through the layer with weights `w`, bias `b` and rectifier level `z`. -/
def row {K N : Nat} (z : EReal) (x : Fin K → EReal) (w : (⟨2, ![K, N]⟩ : Shape).Idx → EReal) (b : Fin N → EReal)
    (j : Fin N) : EReal :=
  max (∑ k : Fin K, x k * w (ix2 k j) + b j) z

variable (R K N : Nat)

/-- The host's product with the plain dimension numbers, read at `i`. -/
theorem dotGeneral_apply {φ₁ φ₂ : FTy} (prec : Option ContractPrecision) (l : FVec Ideal ⟨2, ![R, K]⟩ φ₁)
    (r : FVec Ideal ⟨2, ![K, N]⟩ φ₂) (i : (⟨2, ![R, N]⟩ : Shape).Idx) :
    Host.dotGeneral (DotDims.plain R K N) prec l r i = ∑ k : Fin K, l (ix2 (i 0) k) * r (ix2 k (i 1)) :=
  (Ideal.dotGeneral_apply (DotDims.plain R K N) prec .single l r i).trans (PlainDot.sum_contr R K N l r i)

/-- A one-row matrix broadcast over `R` rows, read at `i`: its entry in `i`'s column. -/
theorem broadcastTo_row_apply {α : Type} (b : (⟨2, ![1, N]⟩ : Shape).Idx → α)
    (hb : (⟨2, ![1, N]⟩ : Shape).Broadcasts ⟨2, ![R, N]⟩) (i : (⟨2, ![R, N]⟩ : Shape).Idx) :
    broadcastTo ⟨2, ![R, N]⟩ b hb i = b (ix2 0 (i 1)) := by
  refine broadcastTo_apply b hb i (ix2 0 (i 1)) fun a => ?_
  match a with
  | ⟨0, _⟩ => exact (if_pos rfl).symm
  | ⟨1, _⟩ =>
    show (i 1).val = if N = 1 then 0 else (i 1).val
    split
    · have := idx2_lt1 i; omega
    · rfl

/-- The kernel's spelling of the layer, read at `i`. -/
theorem kernel_apply {φ₁ φ₂ : FTy} (x : FVec Ideal ⟨2, ![R, K]⟩ φ₁) (w : FVec Ideal ⟨2, ![K, N]⟩ φ₂)
    (b : FVec Ideal ⟨2, ![1, N]⟩ .f32) (hb : (⟨2, ![1, N]⟩ : Shape).Broadcasts ⟨2, ![R, N]⟩) (z : BitVec 32)
    (i : (⟨2, ![R, N]⟩ : Shape).Idx) :
    maximumf (addf (matmul (DotDims.plain R K N) none x w (constant ⟨2, ![R, N]⟩ .f32 0x00000000#32))
        (broadcastTo ⟨2, ![R, N]⟩ b hb)) (broadcast ⟨2, ![R, N]⟩ (Scalar.ofBits (F := Ideal) .f32 z)) i
      = row (Ideal.ofBits .f32 z) (fun k => x (ix2 (i 0) k)) w (fun j => b (ix2 0 j)) (i 1) := by
  rw [maximumf_apply, addf_apply, PlainDot.matmul_zero_apply, broadcastTo_row_apply]
  rfl

/-- A vector broadcast to one row and then over `R` rows, read at `i`: its entry at `i`'s column. -/
theorem broadcastInDim_row_apply {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (i : (⟨2, ![R, N]⟩ : Shape).Idx) :
    broadcastInDim ⟨2, ![R, N]⟩ ![0, 1] h2 (broadcastInDim ⟨2, ![1, N]⟩ ![1] h1 b) i
      = b (ix1 ⟨(i 1).val, idx2_lt1 i⟩) := by
  have hN : (i 1).val < N := idx2_lt1 i
  refine (broadcastInDim_apply _ h2 _ i (ix2 (0 : Fin 1) (⟨(i 1).val, hN⟩ : Fin N)) fun a => ?_).trans ?_
  · match a with
    | ⟨0, _⟩ => exact (if_pos rfl).symm
    | ⟨1, _⟩ =>
      show (i 1).val = if N = 1 then 0 else (i 1).val
      split
      · omega
      · rfl
  · refine broadcastInDim_apply _ h1 b (ix2 (0 : Fin 1) (⟨(i 1).val, hN⟩ : Fin N)) (ix1 ⟨(i 1).val, hN⟩) fun a => ?_
    match a with
    | ⟨0, _⟩ =>
      show (i 1).val = if N = 1 then 0 else (i 1).val
      split
      · omega
      · rfl

/-- The host's spelling of the layer, read at `i`. -/
theorem host_apply {φ₁ φ₂ : FTy} (x : FVec Ideal ⟨2, ![R, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![R, N]⟩ ![0, 1])
    (h0 : (⟨0, ![]⟩ : Shape).BroadcastsInDim ⟨2, ![R, N]⟩ ![]) (z : BitVec 32) (i : (⟨2, ![R, N]⟩ : Shape).Idx) :
    maximumf (addf (Host.dotGeneral (DotDims.plain R K N) none x w)
        (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 z)) i
      = row (Ideal.ofBits .f32 z) (fun k => x (ix2 (i 0) k)) w (fun j => b (ix1 j)) (i 1) := by
  rw [maximumf_apply, addf_apply, dotGeneral_apply, broadcastInDim_row_apply]
  rfl

end Idealize.ShloMosaic.DenseRelu

end
-- ==== Proof.LibConcatCols.lean ====
/-
  Three column bands laid side by side: the concatenation, along the column axis, of three `R × 128` matrices into an
  `R × 384` one, read at an entry. Column `k` of row `r` is the first matrix's for `k < 128`, the second's at
  `k - 128` for `k < 256`, and the third's at `k - 256` otherwise; the row is never touched. Stated for any number
  of rows `R`, so that it reads a whole array and any block of its rows alike.
-/
import Idealize.ShloMosaic.Lib.ValueIdx
import Idealize.ShloMosaic.Lib.Pipeline.Value

noncomputable section

namespace Idealize.ShloMosaic.ConcatCols

open Idealize.ShloMosaic Idealize.ShloMosaic.ValueIdx

variable {α : Type} (R : Nat)

/-- Row `r` of three `R × 128` matrices side by side, as a function of the column `k < 384`. -/
def bands (x0 x1 x2 : (⟨2, ![R, 128]⟩ : Shape).Idx → α) (r : Fin R) (k : Fin 384) : α :=
  if h0 : k.val < 128 then x0 (ix2 r ⟨k.val, h0⟩)
  else if h1 : k.val < 256 then x1 (ix2 r ⟨k.val - 128, by omega⟩)
  else x2 (ix2 r ⟨k.val - 256, by have := k.isLt; omega⟩)

/-- The concatenation along the columns, read at `(r, k)`, is that band's entry. -/
theorem concatenate_apply (x0 x1 x2 : (⟨2, ![R, 128]⟩ : Shape).Idx → α)
    (h : Shape.Concatenates ([(⟨⟨2, ![R, 128]⟩, x0⟩ : (s : Shape) × (s.Idx → α)), ⟨⟨2, ![R, 128]⟩, x1⟩, ⟨⟨2, ![R, 128]⟩, x2⟩].map (·.1))
      ⟨2, ![R, 384]⟩ 1) (r : Fin R) (k : Fin 384) :
    concatenate ⟨2, ![R, 384]⟩ 1 [⟨⟨2, ![R, 128]⟩, x0⟩, ⟨⟨2, ![R, 128]⟩, x1⟩, ⟨⟨2, ![R, 128]⟩, x2⟩] h (ix2 r k)
      = bands R x0 x1 x2 r k := by
  unfold bands
  by_cases h0 : k.val < 128
  · rw [dif_pos h0]
    refine concatenate_apply_piece 1 _ h (ix2 r k) 0 (by simp) ⟨2, ![R, 128]⟩ x0 rfl rfl 0 rfl (ix2 r ⟨k.val, h0⟩) ?_ ?_
    · intro b hb
      match b with
      | ⟨0, _⟩ => rfl
      | ⟨1, _⟩ => exact absurd rfl hb
    · show 0 + k.val = k.val
      omega
  · rw [dif_neg h0]
    by_cases h1 : k.val < 256
    · rw [dif_pos h1]
      refine concatenate_apply_piece 1 _ h (ix2 r k) 1 (by simp) ⟨2, ![R, 128]⟩ x1 rfl rfl 128 rfl
        (ix2 r ⟨k.val - 128, by omega⟩) ?_ ?_
      · intro b hb
        match b with
        | ⟨0, _⟩ => rfl
        | ⟨1, _⟩ => exact absurd rfl hb
      · show 128 + (k.val - 128) = k.val
        omega
    · rw [dif_neg h1]
      refine concatenate_apply_piece 1 _ h (ix2 r k) 2 (by simp) ⟨2, ![R, 128]⟩ x2 rfl rfl 256 rfl
        (ix2 r ⟨k.val - 256, by have := k.isLt; omega⟩) ?_ ?_
      · intro b hb
        match b with
        | ⟨0, _⟩ => rfl
        | ⟨1, _⟩ => exact absurd rfl hb
      · show 256 + (k.val - 256) = k.val
        omega

/-- Bands of matrices whose rows agree, row `r` of the one being row `r'` of the other, agree there. -/
theorem bands_congr {R' : Nat} (x0 x1 x2 : (⟨2, ![R, 128]⟩ : Shape).Idx → α) (y0 y1 y2 : (⟨2, ![R', 128]⟩ : Shape).Idx → α)
    (r : Fin R) (r' : Fin R') (e0 : ∀ q, x0 (ix2 r q) = y0 (ix2 r' q)) (e1 : ∀ q, x1 (ix2 r q) = y1 (ix2 r' q))
    (e2 : ∀ q, x2 (ix2 r q) = y2 (ix2 r' q)) (k : Fin 384) : bands R x0 x1 x2 r k = bands R' y0 y1 y2 r' k := by
  unfold bands
  split
  · exact e0 _
  · split
    · exact e1 _
    · exact e2 _

end Idealize.ShloMosaic.ConcatCols

end
-- ==== Proof.Spec.lean ====
/-
  What the two programs compute, one output entry at a time, at the ideal values.

  An EDGE row is the three bands (subject features, predicate features, object features: 3 × 128 columns) pushed through
  two dense layers with a rectifier after each, 384 → 128 → 384; the three edge outputs are its column bands 0..127,
  128..255 and 256..383. An OBJECT row is a pooled feature row pushed through two such layers, 128 → 128 → 128. Each row
  of the result depends on the same row of the operand only, which is why a row tile of the operand gives that row tile of
  the result.
-/
import proofs.«120035_j88923002896582_1_alg».proof.Proof.LibDenseRelu
import proofs.«120035_j88923002896582_1_alg».proof.Proof.LibConcatCols

noncomputable section

namespace Cert.Spec

open Idealize.ShloMosaic Idealize.ShloMosaic.ValueIdx Idealize.ShloMosaic.DenseRelu Idealize.ShloMosaic.ConcatCols

/-- The rectifiers' level: the value of the zero pattern. -/
abbrev z0 : EReal := Ideal.ofBits .f32 0x00000000#32

/-- Entry `j` of row `r` of the edge perceptron's 384 output columns. -/
def edgeRow {R : Nat} (s p o : (⟨2, ![R, 128]⟩ : Shape).Idx → EReal) (w1 : (⟨2, ![384, 128]⟩ : Shape).Idx → EReal)
    (b1 : Fin 128 → EReal) (w2 : (⟨2, ![128, 384]⟩ : Shape).Idx → EReal) (b2 : Fin 384 → EReal) (r : Fin R) (j : Fin 384) : EReal :=
  row z0 (fun k => row z0 (bands R s p o r) w1 b1 k) w2 b2 j

/-- Entry `j` of row `r` of the object perceptron. -/
def objRow {R : Nat} (x : (⟨2, ![R, 128]⟩ : Shape).Idx → EReal) (w1 : (⟨2, ![128, 128]⟩ : Shape).Idx → EReal)
    (b1 : Fin 128 → EReal) (w2 : (⟨2, ![128, 128]⟩ : Shape).Idx → EReal) (b2 : Fin 128 → EReal) (r : Fin R) (j : Fin 128) : EReal :=
  row z0 (fun k => row z0 (fun k' => x (ix2 r k')) w1 b1 k) w2 b2 j

/-- A layer's entry depends on its input row through the row's entries only. -/
theorem row_congr {K N : Nat} (z : EReal) (x x' : Fin K → EReal) (w : (⟨2, ![K, N]⟩ : Shape).Idx → EReal) (b : Fin N → EReal)
    (j : Fin N) (h : ∀ k, x k = x' k) : row z x w b j = row z x' w b j := by
  rw [funext h]

/-- Rows that agree band by band have the same edge row. -/
theorem edgeRow_congr {R R' : Nat} (s p o : (⟨2, ![R, 128]⟩ : Shape).Idx → EReal) (s' p' o' : (⟨2, ![R', 128]⟩ : Shape).Idx → EReal)
    (w1 : (⟨2, ![384, 128]⟩ : Shape).Idx → EReal) (b1 : Fin 128 → EReal) (w2 : (⟨2, ![128, 384]⟩ : Shape).Idx → EReal)
    (b2 : Fin 384 → EReal) (r : Fin R) (r' : Fin R') (es : ∀ q, s (ix2 r q) = s' (ix2 r' q)) (ep : ∀ q, p (ix2 r q) = p' (ix2 r' q))
    (eo : ∀ q, o (ix2 r q) = o' (ix2 r' q)) (j : Fin 384) : edgeRow s p o w1 b1 w2 b2 r j = edgeRow s' p' o' w1 b1 w2 b2 r' j := by
  unfold edgeRow
  refine row_congr _ _ _ _ _ _ fun k => row_congr _ _ _ _ _ _ fun k' => ?_
  exact bands_congr R s p o s' p' o' r r' es ep eo k'

/-- Rows that agree entry by entry have the same object row. -/
theorem objRow_congr {R R' : Nat} (x : (⟨2, ![R, 128]⟩ : Shape).Idx → EReal) (x' : (⟨2, ![R', 128]⟩ : Shape).Idx → EReal)
    (w1 : (⟨2, ![128, 128]⟩ : Shape).Idx → EReal) (b1 : Fin 128 → EReal) (w2 : (⟨2, ![128, 128]⟩ : Shape).Idx → EReal)
    (b2 : Fin 128 → EReal) (r : Fin R) (r' : Fin R') (e : ∀ q, x (ix2 r q) = x' (ix2 r' q)) (j : Fin 128) :
    objRow x w1 b1 w2 b2 r j = objRow x' w1 b1 w2 b2 r' j := by
  unfold objRow
  exact row_congr _ _ _ _ _ _ fun k => row_congr _ _ _ _ _ _ fun k' => e k'

end Cert.Spec

end
-- ==== Proof.EdgePayload.lean ====
/-
  The edge kernel's body at an entry. The body concatenates its three 3200-row tiles (subject, predicate and object
  features) along the columns, pushes the 384 columns through the first dense layer and its rectifier, the 128 hidden
  columns through the second, and stores the three 128-column bands of the 384 output columns. At the ideal values the
  roundings to bf16 on the way are the identity, so entry `(y, j)` of the 384-column value is the edge row of row `y` of
  the three tiles, and each stored band reads it at the band's column offset.
-/
import proofs.«120035_j88923002896582_1_alg».proof.Proof.Gen.KernelIdeal.Skeleton
import proofs.«120035_j88923002896582_1_alg».proof.Proof.Spec

noncomputable section

namespace Cert.KernelIdeal.Edge

open Cert.KernelIdeal Cert.KernelIdeal.Gen Idealize.ShloMosaic Idealize.ShloMosaic.ValueIdx Cert.Spec
open Idealize.ShloMosaic.DenseRelu Idealize.ShloMosaic.ConcatCols

variable (x0 x1 x2 : Vec Ideal S3200x128 .bf16) (x3 : Vec Ideal S384x128 .bf16) (x4 : Vec Ideal S1x128 .f32)
  (x5 : Vec Ideal S128x384 .bf16) (x6 : Vec Ideal S1x384 .f32)

/-- The 384 output columns of a row tile: row `y`, column `j`. -/
theorem pay1_apply (y : Fin 3200) (j : Fin 384) :
    k0_pay1 (F := Ideal) x0 x1 x2 x3 x4 x5 x6 (ix2 y j)
      = edgeRow x0 x1 x2 x3 (fun k => x4 (ix2 0 k)) x5 (fun q => x6 (ix2 0 q)) y j := by
  unfold k0_pay1
  simp only [shapeCast_self]
  refine (kernel_apply 3200 128 384 _ _ _ _ _ (ix2 y j)).trans ?_
  unfold edgeRow
  refine row_congr _ _ _ _ _ _ fun k => ?_
  refine (kernel_apply 3200 384 128 _ _ _ _ _ (ix2 y k)).trans ?_
  refine row_congr _ _ _ _ _ _ fun k' => ?_
  refine (concatenate_apply 3200 _ _ _ _ y k').trans ?_
  simp only [shapeCast_self]

/-- The first stored band: columns 0..127. -/
theorem pay2_apply (y : Fin 3200) (q : Fin 128) :
    k0_pay2 (F := Ideal) x0 x1 x2 x3 x4 x5 x6 (ix2 y q)
      = edgeRow x0 x1 x2 x3 (fun k => x4 (ix2 0 k)) x5 (fun q => x6 (ix2 0 q)) y ⟨0 + q.val, by omega⟩ := by
  unfold k0_pay2
  refine (extractStridedSlice_apply ![0, 0] _ _ (ix2 y q) (ix2 y (⟨0 + q.val, by omega⟩ : Fin 384)) fun a => ?_).trans
    (pay1_apply x0 x1 x2 x3 x4 x5 x6 y _)
  match a with
  | ⟨0, _⟩ => exact (Nat.zero_add _).symm
  | ⟨1, _⟩ => rfl

/-- The second stored band: columns 128..255. -/
theorem pay3_apply (y : Fin 3200) (q : Fin 128) :
    k0_pay3 (F := Ideal) x0 x1 x2 x3 x4 x5 x6 (ix2 y q)
      = edgeRow x0 x1 x2 x3 (fun k => x4 (ix2 0 k)) x5 (fun q => x6 (ix2 0 q)) y ⟨128 + q.val, by omega⟩ := by
  unfold k0_pay3
  refine (extractStridedSlice_apply ![0, 128] _ _ (ix2 y q) (ix2 y (⟨128 + q.val, by omega⟩ : Fin 384)) fun a => ?_).trans
    (pay1_apply x0 x1 x2 x3 x4 x5 x6 y _)
  match a with
  | ⟨0, _⟩ => exact (Nat.zero_add _).symm
  | ⟨1, _⟩ => rfl

/-- The third stored band: columns 256..383. -/
theorem pay4_apply (y : Fin 3200) (q : Fin 128) :
    k0_pay4 (F := Ideal) x0 x1 x2 x3 x4 x5 x6 (ix2 y q)
      = edgeRow x0 x1 x2 x3 (fun k => x4 (ix2 0 k)) x5 (fun q => x6 (ix2 0 q)) y ⟨256 + q.val, by omega⟩ := by
  unfold k0_pay4
  refine (extractStridedSlice_apply ![0, 256] _ _ (ix2 y q) (ix2 y (⟨256 + q.val, by omega⟩ : Fin 384)) fun a => ?_).trans
    (pay1_apply x0 x1 x2 x3 x4 x5 x6 y _)
  match a with
  | ⟨0, _⟩ => exact (Nat.zero_add _).symm
  | ⟨1, _⟩ => rfl

end Cert.KernelIdeal.Edge

end
-- ==== Proof.EdgeValue.lean ====
/-
  The edge region's three output arrays as whole-array functions of the arrays the region finds.

  The region's grid is the 125 row tiles of 3200 rows. At point `t` the three feature windows hold rows
  `3200 t .. 3200 t + 3199` of their arrays and the four parameter windows hold their whole arrays; the body stores, in each
  output window, a band of the edge rows of its tile. Row `3200 t + y` of an output array is therefore the edge row of
  row `3200 t + y` of the feature arrays, band by band, and the row tiles cover the 400000 rows: each output array ends
  holding its band of the edge rows of the whole feature arrays.
-/
import proofs.«120035_j88923002896582_1_alg».proof.Proof.Gen.KernelIdeal.Frame
import proofs.«120035_j88923002896582_1_alg».proof.Proof.EdgePayload
import Idealize.ShloMosaic.Lib.Pipeline.Value

set_option maxRecDepth 16384

noncomputable section

namespace Cert.KernelIdeal.Edge

open Cert.KernelIdeal Cert.KernelIdeal.Gen Idealize.ShloMosaic Idealize.ShloMosaic.TcCoe Idealize.ShloMosaic.ValueIdx Cert.Spec
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, at their literal types -/

abbrev sArr (c : Dev nD) : Vec Ideal S400000x128 .bf16 := V c main_v18
abbrev pArr (c : Dev nD) : Vec Ideal S400000x128 .bf16 := V c main_v19
abbrev oArr (c : Dev nD) : Vec Ideal S400000x128 .bf16 := V c main_v20
abbrev w1Arr (c : Dev nD) : Vec Ideal S384x128 .bf16 := V c main_v21
abbrev b1Arr (c : Dev nD) : Vec Ideal S1x128 .f32 := V c main_v23
abbrev w2Arr (c : Dev nD) : Vec Ideal S128x384 .bf16 := V c main_v22
abbrev b2Arr (c : Dev nD) : Vec Ideal S1x384 .f32 := V c main_v24

/-- Band `off .. off + 127` of the edge rows of the arrays: what an output array ends holding. -/
def band (off : Nat) (hoff : off + 128 ≤ 384) (c : Dev nD) : Vec Ideal S400000x128 .f32 := fun i =>
  edgeRow (sArr V c) (pArr V c) (oArr V c) (w1Arr V c) (fun k => b1Arr V c (ix2 0 k)) (w2Arr V c) (fun q => b2Arr V c (ix2 0 q))
    (⟨(i 0).val, idx2_lt0 i⟩ : Fin 400000) ⟨off + (i 1).val, by have := idx2_lt1 i; omega⟩

/-- Row `y` of row tile `t`. -/
abbrev rowOf (t : Fin cfg0.N) (y : Fin 3200) : Fin 400000 :=
  ⟨t.val * 3200 + y.val, by have h : t.val < 125 := t.isLt; have := y.isLt; omega⟩

/-- The printed index maps, decided over the grid: the three feature windows and the three output windows are at row tile
    `t`, column block 0; the four parameter windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## The input blocks, read where the arrays hold them -/

/-- Row `y` of the subject-feature block at point `t` is row `3200 t + y` of its array. -/
theorem rows0 (c : Dev nD) (t : Fin cfg0.N) (y : Fin 3200) (q : Fin 128) :
    iblk0 V c 0 t (ix2 y q) = sArr V c (ix2 (rowOf t y) q) := by
  obtain ⟨e0, e1, -⟩ := idx_facts t
  show V c main_v18 (((cfg0.win 0).blk t).view.emb (ix2 y q)) = V c main_v18 (ix2 (rowOf t y) q)
  refine congrArg _ (funext fun a => Fin.ext ?_)
  match a with
  | ⟨0, _⟩ => show win0_0.index t (0 : Fin 2) * 3200 + 1 * y.val = t.val * 3200 + y.val; rw [e0]; omega
  | ⟨1, _⟩ => show win0_0.index t (1 : Fin 2) * 128 + 1 * q.val = q.val; rw [e1]; omega

/-- The same for the predicate features. -/
theorem rows1 (c : Dev nD) (t : Fin cfg0.N) (y : Fin 3200) (q : Fin 128) :
    iblk0 V c 1 t (ix2 y q) = pArr V c (ix2 (rowOf t y) q) := by
  obtain ⟨-, -, e0, e1, -⟩ := idx_facts t
  show V c main_v19 (((cfg0.win 1).blk t).view.emb (ix2 y q)) = V c main_v19 (ix2 (rowOf t y) q)
  refine congrArg _ (funext fun a => Fin.ext ?_)
  match a with
  | ⟨0, _⟩ => show win0_1.index t (0 : Fin 2) * 3200 + 1 * y.val = t.val * 3200 + y.val; rw [e0]; omega
  | ⟨1, _⟩ => show win0_1.index t (1 : Fin 2) * 128 + 1 * q.val = q.val; rw [e1]; omega

/-- The same for the object features. -/
theorem rows2 (c : Dev nD) (t : Fin cfg0.N) (y : Fin 3200) (q : Fin 128) :
    iblk0 V c 2 t (ix2 y q) = oArr V c (ix2 (rowOf t y) q) := by
  obtain ⟨-, -, -, -, e0, e1, -⟩ := idx_facts t
  show V c main_v20 (((cfg0.win 2).blk t).view.emb (ix2 y q)) = V c main_v20 (ix2 (rowOf t y) q)
  refine congrArg _ (funext fun a => Fin.ext ?_)
  match a with
  | ⟨0, _⟩ => show win0_2.index t (0 : Fin 2) * 3200 + 1 * y.val = t.val * 3200 + y.val; rw [e0]; omega
  | ⟨1, _⟩ => show win0_2.index t (1 : Fin 2) * 128 + 1 * q.val = q.val; rw [e1]; omega

/-- The first layer's weights: the window's block is the whole array at every point. -/
theorem blk3 (c : Dev nD) (t : Fin cfg0.N) : iblk0 V c 3 t = w1Arr V c := by
  obtain ⟨-, -, -, -, -, -, e0, e1, -⟩ := idx_facts t
  funext j
  show V c main_v21 (((cfg0.win 3).blk t).view.emb j) = V c main_v21 j
  refine congrArg _ (funext fun a => Fin.ext ?_)
  match a with
  | ⟨0, _⟩ => show win0_3.index t (0 : Fin 2) * 384 + 1 * (j 0).val = (j 0).val; rw [e0]; omega
  | ⟨1, _⟩ => show win0_3.index t (1 : Fin 2) * 128 + 1 * (j 1).val = (j 1).val; rw [e1]; omega

/-- The first layer's bias row. -/
theorem blk4 (c : Dev nD) (t : Fin cfg0.N) : iblk0 V c 4 t = b1Arr V c := by
  obtain ⟨-, -, -, -, -, -, -, -, e0, e1, -⟩ := idx_facts t
  funext j
  show V c main_v23 (((cfg0.win 4).blk t).view.emb j) = V c main_v23 j
  refine congrArg _ (funext fun a => Fin.ext ?_)
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- The second layer's weights. -/
theorem blk5 (c : Dev nD) (t : Fin cfg0.N) : iblk0 V c 5 t = w2Arr V c := by
  obtain ⟨-, -, -, -, -, -, -, -, -, -, e0, e1, -⟩ := idx_facts t
  funext j
  show V c main_v22 (((cfg0.win 5).blk t).view.emb j) = V c main_v22 j
  refine congrArg _ (funext fun a => Fin.ext ?_)
  match a with
  | ⟨0, _⟩ => show win0_5.index t (0 : Fin 2) * 128 + 1 * (j 0).val = (j 0).val; rw [e0]; omega
  | ⟨1, _⟩ => show win0_5.index t (1 : Fin 2) * 384 + 1 * (j 1).val = (j 1).val; rw [e1]; omega

/-- The second layer's bias row. -/
theorem blk6 (c : Dev nD) (t : Fin cfg0.N) : iblk0 V c 6 t = b2Arr V c := by
  obtain ⟨-, -, -, -, -, -, -, -, -, -, -, -, e0, e1, -⟩ := idx_facts t
  funext j
  show V c main_v24 (((cfg0.win 6).blk t).view.emb j) = V c main_v24 j
  refine congrArg _ (funext fun a => Fin.ext ?_)
  match a with
  | ⟨0, _⟩ => show win0_6.index t (0 : Fin 2) * 1 + 1 * (j 0).val = (j 0).val; rw [e0]; omega
  | ⟨1, _⟩ => show win0_6.index t (1 : Fin 2) * 384 + 1 * (j 1).val = (j 1).val; rw [e1]; omega

/-! ## What the three output windows share -/

/-- The edge row of row `y` of the blocks at point `t`, read at column `off + q`, is the band's entry at row
    `3200 t + y`, column `q`: the feature blocks are those rows of their arrays and the parameter blocks the whole arrays. -/
theorem row_band (off : Nat) (hoff : off + 128 ≤ 384) (c : Dev nD) (t : Fin cfg0.N) (y : Fin 3200) (q : Fin 128) :
    edgeRow (iblk0 V c 0 t) (iblk0 V c 1 t) (iblk0 V c 2 t) (iblk0 V c 3 t) (fun k => iblk0 V c 4 t (ix2 0 k)) (iblk0 V c 5 t)
        (fun q' => iblk0 V c 6 t (ix2 0 q')) y (⟨off + q.val, by omega⟩ : Fin 384)
      = band V off hoff c (ix2 (rowOf t y) q) := by
  rw [blk3 V c t, blk4 V c t, blk5 V c t, blk6 V c t]
  exact edgeRow_congr _ _ _ _ _ _ _ _ _ _ y (rowOf t y) (rows0 V c t y) (rows1 V c t y) (rows2 V c t y) _

/-- With an index map that sends point `t` to row tile `t`, column block 0, every index of a 400000 × 128 array is in the
    block of the point that is its row tile. -/
theorem tile_of (idx : Fin cfg0.N → Fin 2 → Nat) (h0 : ∀ t, idx t 0 = t.val) (h1 : ∀ t, idx t 1 = 0) (i : S400000x128.Idx) :
    ∃ t : Fin cfg0.N, ∀ a : Fin 2, idx t a * S3200x128.size a ≤ (i a).val ∧ (i a).val < idx t a * S3200x128.size a + S3200x128.size a := by
  have hi0 : (i 0).val < 400000 := idx2_lt0 i
  have hi1 : (i 1).val < 128 := idx2_lt1 i
  refine ⟨⟨(i 0).val / 3200, by show (i 0).val / 3200 < 125; omega⟩, fun a => ?_⟩
  match a with
  | ⟨0, _⟩ =>
    show idx _ 0 * 3200 ≤ (i 0).val ∧ (i 0).val < idx _ 0 * 3200 + 3200
    rw [h0]; show (i 0).val / 3200 * 3200 ≤ (i 0).val ∧ (i 0).val < (i 0).val / 3200 * 3200 + 3200; omega
  | ⟨1, _⟩ =>
    show idx _ 1 * 128 ≤ (i 1).val ∧ (i 1).val < idx _ 1 * 128 + 128
    rw [h1]; omega

/-! ## Output window 7: the band of columns 0..127 -/

/-- An element of point `t`'s block of output window 7 sits at row `3200 t + y` of the array. -/
theorem emb7 (t : Fin cfg0.N) (y : Fin 3200) (q : Fin 128) :
    (((cfg0.win 7).blk t).view.emb (ix2 y q) : S400000x128.Idx) = ix2 (rowOf t y) q := by
  have e0 := (idx_facts t).2.2.2.2.2.2.2.2.2.2.2.2.2.2.1
  have e1 := (idx_facts t).2.2.2.2.2.2.2.2.2.2.2.2.2.2.2.1
  funext a; apply Fin.ext
  match a with
  | ⟨0, _⟩ => show win0_7.index t (0 : Fin 2) * 3200 + 1 * y.val = t.val * 3200 + y.val; rw [e0]; omega
  | ⟨1, _⟩ => show win0_7.index t (1 : Fin 2) * 128 + 1 * q.val = q.val; rw [e1]; omega

/-- What point `t` writes back to output window 7 is its block of the band. -/
theorem flushed7_eq (c : Dev nD) (t : Fin cfg0.N) :
    (dat0 V c).flushed 7 t = ((cfg0.win 7).blk t).view.read (Elt Ideal) (band V 0 (by omega) c) := by
  show (cfg0.win 7).cut (grid0.coords t) ((dat0 V c).after 7 t) = _
  rw [after0_7]
  unfold out0_7
  rw [View.canon_unit_zero hz]
  simp only [View.ld_unit_zero (S := S3200x128) hz, View.ld_unit_zero (S := S384x128) hz, View.ld_unit_zero (S := S1x128) hz,
    View.ld_unit_zero (S := S128x384) hz, View.ld_unit_zero (S := S1x384) hz]
  funext j
  obtain ⟨y, q, rfl⟩ : ∃ (y : Fin 3200) (q : Fin 128), j = ix2 y q := ⟨j 0, j 1, eq_ix2 j⟩
  show k0_pay2 (iblk0 V c 0 t) (iblk0 V c 1 t) (iblk0 V c 2 t) (iblk0 V c 3 t) (iblk0 V c 4 t) (iblk0 V c 5 t) (iblk0 V c 6 t) (ix2 y q)
    = band V 0 (by omega) c (((cfg0.win 7).blk t).view.emb (ix2 y q))
  rw [emb7 t y q]
  exact (pay2_apply (iblk0 V c 0 t) (iblk0 V c 1 t) (iblk0 V c 2 t) (iblk0 V c 3 t) (iblk0 V c 4 t) (iblk0 V c 5 t) (iblk0 V c 6 t) y q).trans
    (row_band V 0 (by omega) c t y q)

/-- An index of the array is in point `t`'s block iff each coordinate is in the block's range on its axis. -/
theorem mem_blk7 (t : Fin cfg0.N) (i : S400000x128.Idx) :
    i ∈ ((cfg0.win 7).blk t).view.set ↔ ∀ a : Fin 2, win0_7.index t a * S3200x128.size a ≤ (i a).val
      ∧ (i a).val < win0_7.index t a * S3200x128.size a + S3200x128.size a := by
  show i ∈ ((View.whole main_v25_0).slice (win0_7.rect t)).set ↔ _
  rw [View.set_slice_whole, Rect.mem_set_unit]
  exact Iff.rfl

/-- The array after the region's write-backs is the band. -/
theorem arr7 (c : Dev nD) : (dat0 V c).arrAt 7 cfg0.N = band V 0 (by omega) c :=
  (dat0 V c).arrAt_eq_of_cover 7 (band V 0 (by omega) c) (fun t _ => flushed7_eq V c t) fun i => by
    obtain ⟨t, ht⟩ := tile_of win0_7.index (fun t => (idx_facts t).2.2.2.2.2.2.2.2.2.2.2.2.2.2.1)
      (fun t => (idx_facts t).2.2.2.2.2.2.2.2.2.2.2.2.2.2.2.1) i
    exact ⟨t, flush0_7 t, (mem_blk7 t i).mpr ht⟩

/-! ## Output window 8: the band of columns 128..255 -/

/-- An element of point `t`'s block of output window 8 sits at row `3200 t + y` of the array. -/
theorem emb8 (t : Fin cfg0.N) (y : Fin 3200) (q : Fin 128) :
    (((cfg0.win 8).blk t).view.emb (ix2 y q) : S400000x128.Idx) = ix2 (rowOf t y) q := by
  have e0 := (idx_facts t).2.2.2.2.2.2.2.2.2.2.2.2.2.2.2.2.1
  have e1 := (idx_facts t).2.2.2.2.2.2.2.2.2.2.2.2.2.2.2.2.2.1
  funext a; apply Fin.ext
  match a with
  | ⟨0, _⟩ => show win0_8.index t (0 : Fin 2) * 3200 + 1 * y.val = t.val * 3200 + y.val; rw [e0]; omega
  | ⟨1, _⟩ => show win0_8.index t (1 : Fin 2) * 128 + 1 * q.val = q.val; rw [e1]; omega

/-- What point `t` writes back to output window 8 is its block of the band. -/
theorem flushed8_eq (c : Dev nD) (t : Fin cfg0.N) :
    (dat0 V c).flushed 8 t = ((cfg0.win 8).blk t).view.read (Elt Ideal) (band V 128 (by omega) c) := by
  show (cfg0.win 8).cut (grid0.coords t) ((dat0 V c).after 8 t) = _
  rw [after0_8]
  unfold out0_8
  rw [View.canon_unit_zero hz]
  simp only [View.ld_unit_zero (S := S3200x128) hz, View.ld_unit_zero (S := S384x128) hz, View.ld_unit_zero (S := S1x128) hz,
    View.ld_unit_zero (S := S128x384) hz, View.ld_unit_zero (S := S1x384) hz]
  funext j
  obtain ⟨y, q, rfl⟩ : ∃ (y : Fin 3200) (q : Fin 128), j = ix2 y q := ⟨j 0, j 1, eq_ix2 j⟩
  show k0_pay3 (iblk0 V c 0 t) (iblk0 V c 1 t) (iblk0 V c 2 t) (iblk0 V c 3 t) (iblk0 V c 4 t) (iblk0 V c 5 t) (iblk0 V c 6 t) (ix2 y q)
    = band V 128 (by omega) c (((cfg0.win 8).blk t).view.emb (ix2 y q))
  rw [emb8 t y q]
  exact (pay3_apply (iblk0 V c 0 t) (iblk0 V c 1 t) (iblk0 V c 2 t) (iblk0 V c 3 t) (iblk0 V c 4 t) (iblk0 V c 5 t) (iblk0 V c 6 t) y q).trans
    (row_band V 128 (by omega) c t y q)

/-- An index of the array is in point `t`'s block iff each coordinate is in the block's range on its axis. -/
theorem mem_blk8 (t : Fin cfg0.N) (i : S400000x128.Idx) :
    i ∈ ((cfg0.win 8).blk t).view.set ↔ ∀ a : Fin 2, win0_8.index t a * S3200x128.size a ≤ (i a).val
      ∧ (i a).val < win0_8.index t a * S3200x128.size a + S3200x128.size a := by
  show i ∈ ((View.whole main_v25_1).slice (win0_8.rect t)).set ↔ _
  rw [View.set_slice_whole, Rect.mem_set_unit]
  exact Iff.rfl

/-- The array after the region's write-backs is the band. -/
theorem arr8 (c : Dev nD) : (dat0 V c).arrAt 8 cfg0.N = band V 128 (by omega) c :=
  (dat0 V c).arrAt_eq_of_cover 8 (band V 128 (by omega) c) (fun t _ => flushed8_eq V c t) fun i => by
    obtain ⟨t, ht⟩ := tile_of win0_8.index (fun t => (idx_facts t).2.2.2.2.2.2.2.2.2.2.2.2.2.2.2.2.1)
      (fun t => (idx_facts t).2.2.2.2.2.2.2.2.2.2.2.2.2.2.2.2.2.1) i
    exact ⟨t, flush0_8 t, (mem_blk8 t i).mpr ht⟩

/-! ## Output window 9: the band of columns 256..383 -/

/-- An element of point `t`'s block of output window 9 sits at row `3200 t + y` of the array. -/
theorem emb9 (t : Fin cfg0.N) (y : Fin 3200) (q : Fin 128) :
    (((cfg0.win 9).blk t).view.emb (ix2 y q) : S400000x128.Idx) = ix2 (rowOf t y) q := by
  have e0 := (idx_facts t).2.2.2.2.2.2.2.2.2.2.2.2.2.2.2.2.2.2.1
  have e1 := (idx_facts t).2.2.2.2.2.2.2.2.2.2.2.2.2.2.2.2.2.2.2
  funext a; apply Fin.ext
  match a with
  | ⟨0, _⟩ => show win0_9.index t (0 : Fin 2) * 3200 + 1 * y.val = t.val * 3200 + y.val; rw [e0]; omega
  | ⟨1, _⟩ => show win0_9.index t (1 : Fin 2) * 128 + 1 * q.val = q.val; rw [e1]; omega

/-- What point `t` writes back to output window 9 is its block of the band. -/
theorem flushed9_eq (c : Dev nD) (t : Fin cfg0.N) :
    (dat0 V c).flushed 9 t = ((cfg0.win 9).blk t).view.read (Elt Ideal) (band V 256 (by omega) c) := by
  show (cfg0.win 9).cut (grid0.coords t) ((dat0 V c).after 9 t) = _
  rw [after0_9]
  unfold out0_9
  rw [View.canon_unit_zero hz]
  simp only [View.ld_unit_zero (S := S3200x128) hz, View.ld_unit_zero (S := S384x128) hz, View.ld_unit_zero (S := S1x128) hz,
    View.ld_unit_zero (S := S128x384) hz, View.ld_unit_zero (S := S1x384) hz]
  funext j
  obtain ⟨y, q, rfl⟩ : ∃ (y : Fin 3200) (q : Fin 128), j = ix2 y q := ⟨j 0, j 1, eq_ix2 j⟩
  show k0_pay4 (iblk0 V c 0 t) (iblk0 V c 1 t) (iblk0 V c 2 t) (iblk0 V c 3 t) (iblk0 V c 4 t) (iblk0 V c 5 t) (iblk0 V c 6 t) (ix2 y q)
    = band V 256 (by omega) c (((cfg0.win 9).blk t).view.emb (ix2 y q))
  rw [emb9 t y q]
  exact (pay4_apply (iblk0 V c 0 t) (iblk0 V c 1 t) (iblk0 V c 2 t) (iblk0 V c 3 t) (iblk0 V c 4 t) (iblk0 V c 5 t) (iblk0 V c 6 t) y q).trans
    (row_band V 256 (by omega) c t y q)

/-- An index of the array is in point `t`'s block iff each coordinate is in the block's range on its axis. -/
theorem mem_blk9 (t : Fin cfg0.N) (i : S400000x128.Idx) :
    i ∈ ((cfg0.win 9).blk t).view.set ↔ ∀ a : Fin 2, win0_9.index t a * S3200x128.size a ≤ (i a).val
      ∧ (i a).val < win0_9.index t a * S3200x128.size a + S3200x128.size a := by
  show i ∈ ((View.whole main_v25_2).slice (win0_9.rect t)).set ↔ _
  rw [View.set_slice_whole, Rect.mem_set_unit]
  exact Iff.rfl

/-- The array after the region's write-backs is the band. -/
theorem arr9 (c : Dev nD) : (dat0 V c).arrAt 9 cfg0.N = band V 256 (by omega) c :=
  (dat0 V c).arrAt_eq_of_cover 9 (band V 256 (by omega) c) (fun t _ => flushed9_eq V c t) fun i => by
    obtain ⟨t, ht⟩ := tile_of win0_9.index (fun t => (idx_facts t).2.2.2.2.2.2.2.2.2.2.2.2.2.2.2.2.2.2.1)
      (fun t => (idx_facts t).2.2.2.2.2.2.2.2.2.2.2.2.2.2.2.2.2.2.2) i
    exact ⟨t, flush0_9 t, (mem_blk9 t i).mpr ht⟩

end Cert.KernelIdeal.Edge

end
-- ==== Proof.ObjPayload.lean ====
/-
  The object kernel's body at an entry: a 5000-row tile of pooled features through two dense layers with a rectifier
  after each, 128 → 128 → 128; at the ideal values the rounding to bf16 between the layers is the identity, so entry
  `(y, j)` of what the body stores is the object row of row `y` of the tile.
-/
import proofs.«120035_j88923002896582_1_alg».proof.Proof.Gen.KernelIdeal.Skeleton
import proofs.«120035_j88923002896582_1_alg».proof.Proof.Spec

noncomputable section

namespace Cert.KernelIdeal.Obj

open Cert.KernelIdeal Cert.KernelIdeal.Gen Idealize.ShloMosaic Idealize.ShloMosaic.ValueIdx Cert.Spec
open Idealize.ShloMosaic.DenseRelu

/-- What the body stores: row `y`, column `j`. -/
theorem pay1_apply (x0 : Vec Ideal S5000x128 .bf16) (x1 : Vec Ideal S128x128 .bf16) (x2 : Vec Ideal S1x128 .f32)
    (x3 : Vec Ideal S128x128 .bf16) (x4 : Vec Ideal S1x128 .f32) (y : Fin 5000) (j : Fin 128) :
    k1_pay1 (F := Ideal) x0 x1 x2 x3 x4 (ix2 y j)
      = objRow x0 x1 (fun k => x2 (ix2 0 k)) x3 (fun q => x4 (ix2 0 q)) y j := by
  unfold k1_pay1
  simp only [shapeCast_self]
  refine (kernel_apply 5000 128 128 _ _ _ _ _ (ix2 y j)).trans ?_
  unfold objRow
  refine row_congr _ _ _ _ _ _ fun k => ?_
  exact kernel_apply 5000 128 128 _ _ _ _ _ (ix2 y k)

end Cert.KernelIdeal.Obj

end
-- ==== Proof.ObjValue.lean ====
/-
  The object region's output array as a whole-array function of the arrays the region finds.

  The region's grid is the 20 row tiles of 5000 rows. At point `t` the feature window holds rows `5000 t .. 5000 t + 4999`
  of the pooled features and the four parameter windows hold their whole arrays; the body stores the object rows of its
  tile. Row `5000 t + y` of the output array is therefore the object row of row `5000 t + y` of the pooled features, and
  the row tiles cover the 100000 rows.
-/
import proofs.«120035_j88923002896582_1_alg».proof.Proof.Gen.KernelIdeal.Frame
import proofs.«120035_j88923002896582_1_alg».proof.Proof.ObjPayload
import Idealize.ShloMosaic.Lib.Pipeline.Value

set_option maxRecDepth 16384

noncomputable section

namespace Cert.KernelIdeal.Obj

open Cert.KernelIdeal Cert.KernelIdeal.Gen Idealize.ShloMosaic Idealize.ShloMosaic.TcCoe Idealize.ShloMosaic.ValueIdx Cert.Spec
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, at their literal types -/

abbrev xArr (c : Dev nD) : Vec Ideal S100000x128 .bf16 := V c main_v61
abbrev w1Arr (c : Dev nD) : Vec Ideal S128x128 .bf16 := V c main_v62
abbrev b1Arr (c : Dev nD) : Vec Ideal S1x128 .f32 := V c main_v64
abbrev w2Arr (c : Dev nD) : Vec Ideal S128x128 .bf16 := V c main_v63
abbrev b2Arr (c : Dev nD) : Vec Ideal S1x128 .f32 := V c main_v65

/-- The object rows of the pooled features: what the output array ends holding. -/
def rows (c : Dev nD) : Vec Ideal S100000x128 .f32 := fun i =>
  objRow (xArr V c) (w1Arr V c) (fun k => b1Arr V c (ix2 0 k)) (w2Arr V c) (fun q => b2Arr V c (ix2 0 q))
    (⟨(i 0).val, idx2_lt0 i⟩ : Fin 100000) (⟨(i 1).val, idx2_lt1 i⟩ : Fin 128)

/-- Row `y` of row tile `t`. -/
abbrev rowOf (t : Fin cfg1.N) (y : Fin 5000) : Fin 100000 :=
  ⟨t.val * 5000 + y.val, by have h : t.val < 20 := t.isLt; have := y.isLt; omega⟩

/-- The printed index maps, decided over the grid: the feature window and the output window are at row tile `t`, column
    block 0; the four parameter windows at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The input blocks, read where the arrays hold them -/

/-- Row `y` of the feature block at point `t` is row `5000 t + y` of the pooled features. -/
theorem rows0 (c : Dev nD) (t : Fin cfg1.N) (y : Fin 5000) (q : Fin 128) :
    iblk1 V c 0 t (ix2 y q) = xArr V c (ix2 (rowOf t y) q) := by
  obtain ⟨e0, e1, -⟩ := idx_facts t
  show V c main_v61 (((cfg1.win 0).blk t).view.emb (ix2 y q)) = V c main_v61 (ix2 (rowOf t y) q)
  refine congrArg _ (funext fun a => Fin.ext ?_)
  match a with
  | ⟨0, _⟩ => show win1_0.index t (0 : Fin 2) * 5000 + 1 * y.val = t.val * 5000 + y.val; rw [e0]; omega
  | ⟨1, _⟩ => show win1_0.index t (1 : Fin 2) * 128 + 1 * q.val = q.val; rw [e1]; omega

/-- The first layer's weights: the window's block is the whole array at every point. -/
theorem blk1 (c : Dev nD) (t : Fin cfg1.N) : iblk1 V c 1 t = w1Arr V c := by
  obtain ⟨-, -, e0, e1, -⟩ := idx_facts t
  funext j
  show V c main_v62 (((cfg1.win 1).blk t).view.emb j) = V c main_v62 j
  refine congrArg _ (funext fun a => Fin.ext ?_)
  match a with
  | ⟨0, _⟩ => show win1_1.index t (0 : Fin 2) * 128 + 1 * (j 0).val = (j 0).val; rw [e0]; omega
  | ⟨1, _⟩ => show win1_1.index t (1 : Fin 2) * 128 + 1 * (j 1).val = (j 1).val; rw [e1]; omega

/-- The first layer's bias row. -/
theorem blk2 (c : Dev nD) (t : Fin cfg1.N) : iblk1 V c 2 t = b1Arr V c := by
  obtain ⟨-, -, -, -, e0, e1, -⟩ := idx_facts t
  funext j
  show V c main_v64 (((cfg1.win 2).blk t).view.emb j) = V c main_v64 j
  refine congrArg _ (funext fun a => Fin.ext ?_)
  match a with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega

/-- The second layer's weights. -/
theorem blk3 (c : Dev nD) (t : Fin cfg1.N) : iblk1 V c 3 t = w2Arr V c := by
  obtain ⟨-, -, -, -, -, -, e0, e1, -⟩ := idx_facts t
  funext j
  show V c main_v63 (((cfg1.win 3).blk t).view.emb j) = V c main_v63 j
  refine congrArg _ (funext fun a => Fin.ext ?_)
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

/-- The second layer's bias row. -/
theorem blk4 (c : Dev nD) (t : Fin cfg1.N) : iblk1 V c 4 t = b2Arr V c := by
  obtain ⟨-, -, -, -, -, -, -, -, e0, e1, -⟩ := idx_facts t
  funext j
  show V c main_v65 (((cfg1.win 4).blk t).view.emb j) = V c main_v65 j
  refine congrArg _ (funext fun a => Fin.ext ?_)
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

/-! ## The output window -/

/-- An element of point `t`'s block of the output window sits at row `5000 t + y` of the array. -/
theorem emb5 (t : Fin cfg1.N) (y : Fin 5000) (q : Fin 128) :
    (((cfg1.win 5).blk t).view.emb (ix2 y q) : S100000x128.Idx) = ix2 (rowOf t y) q := by
  have e0 := (idx_facts t).2.2.2.2.2.2.2.2.2.2.1
  have e1 := (idx_facts t).2.2.2.2.2.2.2.2.2.2.2
  funext a; apply Fin.ext
  match a with
  | ⟨0, _⟩ => show win1_5.index t (0 : Fin 2) * 5000 + 1 * y.val = t.val * 5000 + y.val; rw [e0]; omega
  | ⟨1, _⟩ => show win1_5.index t (1 : Fin 2) * 128 + 1 * q.val = q.val; rw [e1]; omega

/-- What point `t` writes back is its block of the object rows. -/
theorem flushed5_eq (c : Dev nD) (t : Fin cfg1.N) :
    (dat1 V c).flushed 5 t = ((cfg1.win 5).blk t).view.read (Elt Ideal) (rows V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨y, q, rfl⟩ : ∃ (y : Fin 5000) (q : Fin 128), j = ix2 y q := ⟨j 0, j 1, eq_ix2 j⟩
  show k1_pay1 (iblk1 V c 0 t) (iblk1 V c 1 t) (iblk1 V c 2 t) (iblk1 V c 3 t) (iblk1 V c 4 t) (ix2 y q)
    = rows V c (((cfg1.win 5).blk t).view.emb (ix2 y q))
  rw [emb5 t y q]
  refine (pay1_apply (iblk1 V c 0 t) (iblk1 V c 1 t) (iblk1 V c 2 t) (iblk1 V c 3 t) (iblk1 V c 4 t) y q).trans ?_
  rw [blk1 V c t, blk2 V c t, blk3 V c t, blk4 V c t]
  exact objRow_congr _ _ _ _ _ _ y (rowOf t y) (rows0 V c t y) q

/-- An index of the array is in point `t`'s block iff each coordinate is in the block's range on its axis. -/
theorem mem_blk5 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v66).slice (win1_5.rect t)).set ↔ _
  rw [View.set_slice_whole, Rect.mem_set_unit]
  exact Iff.rfl

/-- Every row of the array is in the block of the point that is its row tile. -/
theorem cover5 (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  have ht : (i 0).val / 5000 < 20 := by omega
  refine ⟨⟨(i 0).val / 5000, ht⟩, flush1_5 _, ?_⟩
  rw [mem_blk5]
  have e0 := (idx_facts ⟨(i 0).val / 5000, ht⟩).2.2.2.2.2.2.2.2.2.2.1
  have e1 := (idx_facts ⟨(i 0).val / 5000, ht⟩).2.2.2.2.2.2.2.2.2.2.2
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- The array after the region's write-backs holds the object rows. -/
theorem arr5 (c : Dev nD) : (dat1 V c).arrAt 5 cfg1.N = rows V c :=
  (dat1 V c).arrAt_eq_of_cover 5 (rows V c) (fun t _ => flushed5_eq V c t) (cover5)

end Cert.KernelIdeal.Obj

end
-- ==== Proof.RefValue.lean ====
/-
  The reference's two results, one entry at a time.

  The reference gathers the subject and object feature rows, lays them beside the predicate features, and pushes the
  400000 rows through the edge perceptron on the host; its three column bands are the edge outputs. The first and third
  bands are pooled per object (two accumulating scatters, a clipped incidence count, a division: `pool`, never opened
  here) and the pooled rows go through the object perceptron. Each host layer reads, at an entry, as the layer's row form;
  the three slices read the 384 output columns at their offsets.
-/
import proofs.«120035_j88923002896582_1_alg».proof.Proof.Gen.ReferenceIdeal.Run
import proofs.«120035_j88923002896582_1_alg».proof.Proof.Gen.ReferenceIdeal.Read
import proofs.«120035_j88923002896582_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Spec
open Idealize.ShloMosaic.DenseRelu Idealize.ShloMosaic.ConcatCols

variable (x0 : FVec Ideal S100000x128 .f32) (x1 : FVec Ideal S400000x128 .f32) (x2 : IVec S400000x2 32)
  (x3 : FVec Ideal S384x128 .f32) (x4 : FVec Ideal S128 .f32) (x5 : FVec Ideal S128x384 .f32) (x6 : FVec Ideal S384 .f32)
  (x7 : FVec Ideal S128x128 .f32) (x8 : FVec Ideal S128 .f32) (x9 : FVec Ideal S128x128 .f32) (x10 : FVec Ideal S128 .f32)

/-- The 384 output columns of the edge perceptron on the host: row `r`, column `j`, is the edge row of row `r` of the
    gathered subject rows, the predicate rows and the gathered object rows. -/
theorem edge_apply (r : Fin 400000) (j : Fin 384) :
    val_main_v28 (F := Ideal) x0 x1 x2 x3 x4 x5 x6 (ix2 r j)
      = edgeRow (val_main_v10 (F := Ideal) x0 x2) x1 (val_main_v17 (F := Ideal) x0 x2) x3 (fun k => x4 (ix1 k)) x5
          (fun q => x6 (ix1 q)) r j := by
  unfold val_main_v28 val_main_v27 val_main_v24 val_main_v26 val_main_v25 val_main_call1_v0 val_main_call1_cst
    val_main_v23 val_main_v22 val_main_v19 val_main_v21 val_main_v20 val_main_call0_v0 val_main_call0_cst val_main_v18
  generalize val_main_v10 (F := Ideal) x0 x2 = gs
  generalize val_main_v17 (F := Ideal) x0 x2 = go
  refine (host_apply 400000 128 384 _ _ _ _ _ _ _ (ix2 r j)).trans ?_
  unfold edgeRow
  refine row_congr _ _ _ _ _ _ fun k => ?_
  refine (host_apply 400000 384 128 _ _ _ _ _ _ _ (ix2 r k)).trans ?_
  refine row_congr _ _ _ _ _ _ fun k' => ?_
  exact concatenate_apply 400000 gs x1 go _ r k'

/-- The first edge output: columns 0..127 of the edge rows. -/
theorem first_band (i : S400000x128.Idx) :
    val_main_v29 (F := Ideal) x0 x1 x2 x3 x4 x5 x6 i
      = edgeRow (val_main_v10 (F := Ideal) x0 x2) x1 (val_main_v17 (F := Ideal) x0 x2) x3 (fun k => x4 (ix1 k)) x5
          (fun q => x6 (ix1 q)) (⟨(i 0).val, idx2_lt0 i⟩ : Fin 400000) ⟨0 + (i 1).val, by have := idx2_lt1 i; omega⟩ := by
  unfold val_main_v29
  refine (extractStridedSlice_apply ![0, 0] _ _ i
    (ix2 (⟨(i 0).val, idx2_lt0 i⟩ : Fin 400000) (⟨0 + (i 1).val, by have := idx2_lt1 i; omega⟩ : Fin 384)) fun a => ?_).trans
    (edge_apply x0 x1 x2 x3 x4 x5 x6 _ _)
  match a with
  | ⟨0, _⟩ => exact (Nat.zero_add _).symm
  | ⟨1, _⟩ => rfl

/-- The second edge output, a result of the program: columns 128..255. -/
theorem second_band (i : S400000x128.Idx) :
    val_main_v30 (F := Ideal) x0 x1 x2 x3 x4 x5 x6 i
      = edgeRow (val_main_v10 (F := Ideal) x0 x2) x1 (val_main_v17 (F := Ideal) x0 x2) x3 (fun k => x4 (ix1 k)) x5
          (fun q => x6 (ix1 q)) (⟨(i 0).val, idx2_lt0 i⟩ : Fin 400000) ⟨128 + (i 1).val, by have := idx2_lt1 i; omega⟩ := by
  unfold val_main_v30
  refine (extractStridedSlice_apply ![0, 128] _ _ i
    (ix2 (⟨(i 0).val, idx2_lt0 i⟩ : Fin 400000) (⟨128 + (i 1).val, by have := idx2_lt1 i; omega⟩ : Fin 384)) fun a => ?_).trans
    (edge_apply x0 x1 x2 x3 x4 x5 x6 _ _)
  match a with
  | ⟨0, _⟩ => exact (Nat.zero_add _).symm
  | ⟨1, _⟩ => rfl

/-- The third edge output: columns 256..383. -/
theorem third_band (i : S400000x128.Idx) :
    val_main_v31 (F := Ideal) x0 x1 x2 x3 x4 x5 x6 i
      = edgeRow (val_main_v10 (F := Ideal) x0 x2) x1 (val_main_v17 (F := Ideal) x0 x2) x3 (fun k => x4 (ix1 k)) x5
          (fun q => x6 (ix1 q)) (⟨(i 0).val, idx2_lt0 i⟩ : Fin 400000) ⟨256 + (i 1).val, by have := idx2_lt1 i; omega⟩ := by
  unfold val_main_v31
  refine (extractStridedSlice_apply ![0, 256] _ _ i
    (ix2 (⟨(i 0).val, idx2_lt0 i⟩ : Fin 400000) (⟨256 + (i 1).val, by have := idx2_lt1 i; omega⟩ : Fin 384)) fun a => ?_).trans
    (edge_apply x0 x1 x2 x3 x4 x5 x6 _ _)
  match a with
  | ⟨0, _⟩ => exact (Nat.zero_add _).symm
  | ⟨1, _⟩ => rfl

/-! ## The pooling, in named pieces

Each piece is stated once as a function of what it reads, so that the idealized kernel's host operations, which are the same
operations, can be read to the same pieces without opening a scatter. -/

/-- A column of object indices with the negative ones wrapped around (`v < 0 → v + 100000`), as a one-column matrix: the
    scatter indices. -/
def normR (v : IVec S400000 32) : IVec S400000x1 32 :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 100000#32))) v)

theorem v38_eq (e : IVec S400000x2 32) : val_main_v38 (F := Ideal) e = normR (val_main_v1 (F := Ideal) e) := by
  unfold val_main_v38 val_main_v37 val_main_v36 val_main_v35 val_main_c_4 val_main_v34 val_main_v33 val_main_c_3 normR
  rfl
theorem v45_eq (e : IVec S400000x2 32) : val_main_v45 (F := Ideal) e = normR (val_main_v3 (F := Ideal) e) := by
  unfold val_main_v45 val_main_v44 val_main_v43 val_main_v42 val_main_c_6 val_main_v41 val_main_v40 val_main_c_5 normR
  rfl
theorem v54_eq (e : IVec S400000x2 32) : val_main_v54 (F := Ideal) e = normR (val_main_v1 (F := Ideal) e) := by
  unfold val_main_v54 val_main_v53 val_main_v52 val_main_v51 val_main_c_10 val_main_v50 val_main_v49 val_main_c_9 normR
  rfl
theorem v61_eq (e : IVec S400000x2 32) : val_main_v61 (F := Ideal) e = normR (val_main_v3 (F := Ideal) e) := by
  unfold val_main_v61 val_main_v60 val_main_v59 val_main_v58 val_main_c_12 val_main_v57 val_main_v56 val_main_c_11 normR
  rfl

/-- The per-object sums of the subject band at the subject indices and of the object band at the object indices. -/
def sumsR (ns no : FVec Ideal S400000x128 .f32) (i1 i2 : IVec S400000x1 32) : FVec Ideal S100000x128 .f32 :=
  Host.scatterAdd scatter_S100000x128_S400000x1_S400000x128_1_0_0_1
    (Host.scatterAdd scatter_S100000x128_S400000x1_S400000x128_1_0_0_1
      (broadcastInDim S100000x128 ![] bcast_S_S100000x128 (constant S_ .f32 0x00000000#32)) i1 ns) i2 no

/-- The per-object incidence counts: ones summed at the subject and at the object indices. -/
def countsR (i1 i2 : IVec S400000x1 32) : FVec Ideal S100000 .f32 :=
  Host.scatterAdd scatter_S100000_S400000x1_S400000_n_0_0_1
    (Host.scatterAdd scatter_S100000_S400000x1_S400000_n_0_0_1
      (broadcastInDim S100000 ![] bcast_S_S100000 (constant S_ .f32 0x00000000#32)) i1
      (broadcastInDim S400000 ![] bcast_S_S400000 (constant S_ .f32 0x3F800000#32))) i2
    (broadcastInDim S400000 ![] bcast_S_S400000 (constant S_ .f32 0x3F800000#32))

/-- The counts clipped to between 1 and 1000. -/
def clipR (cnt : FVec Ideal S100000 .f32) : FVec Ideal S100000 .f32 :=
  minimumf (broadcastInDim S100000 ![] bcast_S_S100000 (id (constant S_ .f32 0x447A0000#32)))
    (maximumf (broadcastInDim S100000 ![] bcast_S_S100000 (id (constant S_ .f32 0x3F800000#32))) cnt)

/-- The sums divided, row by row, by the clipped counts. -/
def poolOf (ns no : FVec Ideal S400000x128 .f32) (i1 i2 : IVec S400000x1 32) : FVec Ideal S100000x128 .f32 :=
  Host.divf (sumsR ns no i1 i2)
    (broadcastInDim S100000x128 ![0, 1] bcast_S100000x1_S100000x128_0_1
      (broadcastInDim S100000x1 ![0] bcast_S100000_S100000x1_0 (clipR (countsR i1 i2))))

/-- The mean pooling per object, as a function of the two edge outputs it sums and of the edge list. -/
def pool (ns no : FVec Ideal S400000x128 .f32) (e : IVec S400000x2 32) : FVec Ideal S100000x128 .f32 :=
  poolOf ns no (normR (val_main_v1 (F := Ideal) e)) (normR (val_main_v3 (F := Ideal) e))

theorem v46_eq : val_main_v46 (F := Ideal) x0 x1 x2 x3 x4 x5 x6
    = sumsR (val_main_v29 (F := Ideal) x0 x1 x2 x3 x4 x5 x6) (val_main_v31 (F := Ideal) x0 x1 x2 x3 x4 x5 x6)
        (val_main_v38 (F := Ideal) x2) (val_main_v45 (F := Ideal) x2) := by
  unfold val_main_v46 val_main_v39 val_main_v32 val_main_cst sumsR
  rfl

theorem v62_eq : val_main_v62 (F := Ideal) x2 = countsR (val_main_v54 (F := Ideal) x2) (val_main_v61 (F := Ideal) x2) := by
  unfold val_main_v62 val_main_v55 val_main_v48 val_main_cst_8 val_main_v47 val_main_cst_7 countsR
  rfl

theorem v63_eq : val_main_v63 (F := Ideal) x2 = clipR (val_main_v62 (F := Ideal) x2) := by
  unfold val_main_v63 val_main_call2_v4 val_main_call2_v3 val_main_cst_14 val_main_call2_v2 val_main_call2_v1 val_main_call2_v0
    val_main_cst_13 clipR
  rfl

theorem v65_eq : val_main_v65 (F := Ideal) x2
    = broadcastInDim S100000x128 ![0, 1] bcast_S100000x1_S100000x128_0_1
        (broadcastInDim S100000x1 ![0] bcast_S100000_S100000x1_0 (val_main_v63 (F := Ideal) x2)) := by
  unfold val_main_v65 val_main_v64
  rfl

/-- The reference's pooled features are that pooling of its first and third edge outputs. -/
theorem pooled_eq : val_main_v66 (F := Ideal) x0 x1 x2 x3 x4 x5 x6
    = pool (val_main_v29 (F := Ideal) x0 x1 x2 x3 x4 x5 x6) (val_main_v31 (F := Ideal) x0 x1 x2 x3 x4 x5 x6) x2 := by
  unfold val_main_v66 pool poolOf
  rw [v46_eq, v65_eq, v63_eq, v62_eq, v38_eq, v45_eq, v54_eq, v61_eq]

/-- The object result: entry `i` is the object row of row `i 0` of the pooled features. -/
theorem obj_apply (i : S100000x128.Idx) :
    val_main_v76 (F := Ideal) x0 x1 x2 x3 x4 x5 x6 x7 x8 x9 x10 i
      = objRow (val_main_v66 (F := Ideal) x0 x1 x2 x3 x4 x5 x6) x7 (fun k => x8 (ix1 k)) x9 (fun q => x10 (ix1 q))
          (⟨(i 0).val, idx2_lt0 i⟩ : Fin 100000) (⟨(i 1).val, idx2_lt1 i⟩ : Fin 128) := by
  unfold val_main_v76 val_main_v75 val_main_v72 val_main_v74 val_main_v73 val_main_call4_v0 val_main_call4_cst
    val_main_v71 val_main_v70 val_main_v67 val_main_v69 val_main_v68 val_main_call3_v0 val_main_call3_cst
  generalize val_main_v66 (F := Ideal) x0 x1 x2 x3 x4 x5 x6 = P
  refine (host_apply 100000 128 128 _ _ _ _ _ _ _ i).trans ?_
  unfold objRow
  refine row_congr _ _ _ _ _ _ fun k => ?_
  exact host_apply 100000 128 128 _ _ _ _ _ _ _ (ix2 (⟨(i 0).val, idx2_lt0 i⟩ : Fin 100000) k)

/-- The object result as one function of the arguments: the object rows of the pooled first and third bands of the edge
    rows. -/
theorem result0 : val_main_v76 (F := Ideal) x0 x1 x2 x3 x4 x5 x6 x7 x8 x9 x10
    = fun i => objRow
        (pool
          (fun i' => edgeRow (val_main_v10 (F := Ideal) x0 x2) x1 (val_main_v17 (F := Ideal) x0 x2) x3 (fun k => x4 (ix1 k)) x5
            (fun q => x6 (ix1 q)) (⟨(i' 0).val, idx2_lt0 i'⟩ : Fin 400000) ⟨0 + (i' 1).val, by have := idx2_lt1 i'; omega⟩)
          (fun i' => edgeRow (val_main_v10 (F := Ideal) x0 x2) x1 (val_main_v17 (F := Ideal) x0 x2) x3 (fun k => x4 (ix1 k)) x5
            (fun q => x6 (ix1 q)) (⟨(i' 0).val, idx2_lt0 i'⟩ : Fin 400000) ⟨256 + (i' 1).val, by have := idx2_lt1 i'; omega⟩)
          x2)
        x7 (fun k => x8 (ix1 k)) x9 (fun q => x10 (ix1 q)) (⟨(i 0).val, idx2_lt0 i⟩ : Fin 100000) (⟨(i 1).val, idx2_lt1 i⟩ : Fin 128) := by
  funext i
  rw [obj_apply, pooled_eq, funext (first_band x0 x1 x2 x3 x4 x5 x6), funext (third_band x0 x1 x2 x3 x4 x5 x6)]

/-- The edge result as one function of the arguments: the second band of the edge rows. -/
theorem result1 : val_main_v30 (F := Ideal) x0 x1 x2 x3 x4 x5 x6
    = fun i => edgeRow (val_main_v10 (F := Ideal) x0 x2) x1 (val_main_v17 (F := Ideal) x0 x2) x3 (fun k => x4 (ix1 k)) x5
        (fun q => x6 (ix1 q)) (⟨(i 0).val, idx2_lt0 i⟩ : Fin 400000) ⟨128 + (i 1).val, by have := idx2_lt1 i; omega⟩ :=
  funext (second_band x0 x1 x2 x3 x4 x5 x6)

end Cert.ReferenceIdeal.RefValue

end
-- ==== Proof.KernelGlue.lean ====
/-
  What the idealized kernel's host operations compute around its two regions, and with that its two results.

  Before the edge region the host normalises the two index columns of the edge list, gathers the subject and object
  feature rows, and hands the region those, the predicate features and the first perceptron's parameters (the roundings to
  bf16 are the identity at the ideal values; the biases become one-row matrices). Between the regions it pools the first
  and third edge outputs per object — the very operations the reference applies, so the pooling is stated by the
  reference's own term `pool` and never opened — and hands the object region the pooled rows and the second perceptron's
  parameters. The second edge output is a result as the edge region leaves it; the object region's output is the other.
-/
import proofs.«120035_j88923002896582_1_alg».proof.Proof.Gen.KernelIdeal.Frame
import proofs.«120035_j88923002896582_1_alg».proof.Proof.EdgeValue
import proofs.«120035_j88923002896582_1_alg».proof.Proof.ObjValue
import proofs.«120035_j88923002896582_1_alg».proof.Proof.RefValue
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.ValueIdx Cert.Spec
open Idealize.SL.Sem Idealize.ShloMosaic.StableHlo

variable (m : (ℓ : Loc nD τ sig) → Buf (Elt Ideal) ℓ) (ρ : Dev nD → PrngReg)

/-! ## The arguments, at their literal types -/

abbrev a0 (c : Dev nD) : FVec Ideal S100000x128 .f32 := m ((c : Thread nD τ).loc main_arg0)
abbrev a1 (c : Dev nD) : FVec Ideal S400000x128 .f32 := m ((c : Thread nD τ).loc main_arg1)
abbrev a2 (c : Dev nD) : IVec S400000x2 32 := m ((c : Thread nD τ).loc main_arg2)
abbrev a3 (c : Dev nD) : FVec Ideal S384x128 .f32 := m ((c : Thread nD τ).loc main_arg3)
abbrev a4 (c : Dev nD) : FVec Ideal S128 .f32 := m ((c : Thread nD τ).loc main_arg4)
abbrev a5 (c : Dev nD) : FVec Ideal S128x384 .f32 := m ((c : Thread nD τ).loc main_arg5)
abbrev a6 (c : Dev nD) : FVec Ideal S384 .f32 := m ((c : Thread nD τ).loc main_arg6)
abbrev a7 (c : Dev nD) : FVec Ideal S128x128 .f32 := m ((c : Thread nD τ).loc main_arg7)
abbrev a8 (c : Dev nD) : FVec Ideal S128 .f32 := m ((c : Thread nD τ).loc main_arg8)
abbrev a9 (c : Dev nD) : FVec Ideal S128x128 .f32 := m ((c : Thread nD τ).loc main_arg9)
abbrev a10 (c : Dev nD) : FVec Ideal S128 .f32 := m ((c : Thread nD τ).loc main_arg10)

/-- A rounding to a narrower format is the identity at the ideal values. -/
theorem truncf_id {s : Shape} {φ ψ : FTy} (a : FVec Ideal s φ) (h : ψ.bits < φ.bits) : (truncf ψ a h : FVec Ideal s ψ) = a := rfl

/-- A vector reshaped to one row, read at its entry `k`. -/
theorem row_of_vec {N : Nat} (v : (⟨1, ![N]⟩ : Shape).Idx → EReal) (h : (⟨1, ![N]⟩ : Shape).ShapeCasts ⟨2, ![1, N]⟩) (k : Fin N) :
    shapeCast ⟨2, ![1, N]⟩ v h (ix2 0 k) = v (ix1 k) := by
  refine shapeCast_apply v h (ix2 0 k) (ix1 k) ?_
  rw [Shape.rowMajor_val_one, Shape.rowMajor_val_two]
  show k.val = 0 * N + k.val
  omega

/-! ## Before the edge region -/

set_option maxHeartbeats 2000000 in
/-- The subject features the edge region finds: the gathered subject rows. -/
theorem v18_eq (c : Dev nD) : V1 m ρ c main_v18 = Cert.ReferenceIdeal.Read.val_main_v10 (F := Ideal) (a0 m c) (a2 m c) := by
  show StableHlo.after hostOps0 (W0 m ρ c) (Proc.devRef .tc main_v18) = _
  after_results_simp
  rfl

/-- The predicate features. -/
theorem v19_eq (c : Dev nD) : V1 m ρ c main_v19 = a1 m c := by
  show StableHlo.after hostOps0 (W0 m ρ c) (Proc.devRef .tc main_v19) = _
  after_results_simp
  rfl

set_option maxHeartbeats 2000000 in
/-- The object features: the gathered object rows. -/
theorem v20_eq (c : Dev nD) : V1 m ρ c main_v20 = Cert.ReferenceIdeal.Read.val_main_v17 (F := Ideal) (a0 m c) (a2 m c) := by
  show StableHlo.after hostOps0 (W0 m ρ c) (Proc.devRef .tc main_v20) = _
  after_results_simp
  rfl

/-- The first layer's weights. -/
theorem v21_eq (c : Dev nD) : V1 m ρ c main_v21 = a3 m c := by
  show StableHlo.after hostOps0 (W0 m ρ c) (Proc.devRef .tc main_v21) = _
  after_results_simp
  rfl

/-- The second layer's weights. -/
theorem v22_eq (c : Dev nD) : V1 m ρ c main_v22 = a5 m c := by
  show StableHlo.after hostOps0 (W0 m ρ c) (Proc.devRef .tc main_v22) = _
  after_results_simp
  rfl

/-- The first layer's bias, as one row. -/
theorem v23_apply (c : Dev nD) (k : Fin 128) : (V1 m ρ c main_v23 : Vec Ideal S1x128 .f32) (ix2 0 k) = a4 m c (ix1 k) := by
  have e : (V1 m ρ c main_v23 : Vec Ideal S1x128 .f32) = shapeCast S1x128 (a4 m c) shapeCasts_S128_S1x128 := by
    show StableHlo.after hostOps0 (W0 m ρ c) (Proc.devRef .tc main_v23) = _
    after_results_simp
    rfl
  rw [e]
  exact row_of_vec (a4 m c) _ k

/-- The second layer's bias, as one row. -/
theorem v24_apply (c : Dev nD) (q : Fin 384) : (V1 m ρ c main_v24 : Vec Ideal S1x384 .f32) (ix2 0 q) = a6 m c (ix1 q) := by
  have e : (V1 m ρ c main_v24 : Vec Ideal S1x384 .f32) = shapeCast S1x384 (a6 m c) shapeCasts_S384_S1x384 := by
    show StableHlo.after hostOps0 (W0 m ρ c) (Proc.devRef .tc main_v24) = _
    after_results_simp
    rfl
  rw [e]
  exact row_of_vec (a6 m c) _ q

/-- The edge rows of the arguments: row `i 0`, column `off + i 1`. -/
def edgeOut (off : Nat) (hoff : off + 128 ≤ 384) (c : Dev nD) : FVec Ideal S400000x128 .f32 := fun i =>
  edgeRow (Cert.ReferenceIdeal.Read.val_main_v10 (F := Ideal) (a0 m c) (a2 m c)) (a1 m c)
    (Cert.ReferenceIdeal.Read.val_main_v17 (F := Ideal) (a0 m c) (a2 m c)) (a3 m c) (fun k => a4 m c (ix1 k)) (a5 m c)
    (fun q => a6 m c (ix1 q)) (⟨(i 0).val, idx2_lt0 i⟩ : Fin 400000) ⟨off + (i 1).val, by have := idx2_lt1 i; omega⟩

/-- Each output array of the edge region ends holding its band of the edge rows of the arguments. -/
theorem band_eq (off : Nat) (hoff : off + 128 ≤ 384) (c : Dev nD) : Edge.band (V1 m ρ) off hoff c = edgeOut m off hoff c := by
  unfold Edge.band edgeOut
  funext i
  show edgeRow (V1 m ρ c main_v18) (V1 m ρ c main_v19) (V1 m ρ c main_v20) (V1 m ρ c main_v21)
      (fun k => (V1 m ρ c main_v23 : Vec Ideal S1x128 .f32) (ix2 0 k)) (V1 m ρ c main_v22)
      (fun q => (V1 m ρ c main_v24 : Vec Ideal S1x384 .f32) (ix2 0 q)) _ _ = _
  rw [v18_eq, v19_eq, v20_eq, v21_eq, v22_eq, funext (v23_apply m ρ c), funext (v24_apply m ρ c)]

/-! ## Between the regions

Each stretch of host operations is read from ANY contents `X` of the buffers before it, one result at a time, so that every
equation is between small terms; the stretches are then chained at the contents the run gives them. The pooled sums,
counts and clip are read straight to the reference's named pieces: they are the same operations. -/

/-- The first column of the edge list, as the host leaves it before the edge region. -/
theorem v1_eq (c : Dev nD) : W1 m ρ c (Proc.devRef .tc main_v1) = Cert.ReferenceIdeal.Read.val_main_v1 (F := Ideal) (a2 m c) := by
  show StableHlo.after hostOps0 (W0 m ρ c) (Proc.devRef .tc main_v1) = _
  after_results_simp
  rfl

/-- The second column. -/
theorem v3_eq (c : Dev nD) : W1 m ρ c (Proc.devRef .tc main_v3) = Cert.ReferenceIdeal.Read.val_main_v3 (F := Ideal) (a2 m c) := by
  show StableHlo.after hostOps0 (W0 m ρ c) (Proc.devRef .tc main_v3) = _
  after_results_simp
  rfl

open Cert.ReferenceIdeal.RefValue in
/-- After the edge region: the per-object sums of its first and third output arrays. -/
theorem sums_read (X : Valuation τ sig (Elt Ideal)) :
    StableHlo.after hostOps1 X (Proc.devRef .tc main_v40)
      = sumsR (X (Proc.devRef .tc main_v25_0)) (X (Proc.devRef .tc main_v25_2)) (normR (X (Proc.devRef .tc main_v1)))
          (normR (X (Proc.devRef .tc main_v3))) := by
  after_results_simp
  rfl

open Cert.ReferenceIdeal.RefValue in
/-- The incidence counts. -/
theorem counts_read (X : Valuation τ sig (Elt Ideal)) :
    StableHlo.after hostOps1 X (Proc.devRef .tc main_v56)
      = countsR (normR (X (Proc.devRef .tc main_v1))) (normR (X (Proc.devRef .tc main_v3))) := by
  after_results_simp
  rfl

/-- The clip's lower bound, a constant. -/
theorem one_read (X : Valuation τ sig (Elt Ideal)) :
    StableHlo.after hostOps1 X (Proc.devRef .tc main_cst_13) = (constant S_ .f32 0x3F800000#32 : FVec Ideal S_ .f32) := by
  after_results_simp

/-- The clip's upper bound, a constant. -/
theorem thousand_read (X : Valuation τ sig (Elt Ideal)) :
    StableHlo.after hostOps1 X (Proc.devRef .tc main_cst_14) = (constant S_ .f32 0x447A0000#32 : FVec Ideal S_ .f32) := by
  after_results_simp

/-- That stretch writes no output array of the edge region. -/
theorem keeps1_v25_1 (X : Valuation τ sig (Elt Ideal)) :
    StableHlo.after hostOps1 X (Proc.devRef .tc main_v25_1) = X (Proc.devRef .tc main_v25_1) := by
  after_results_simp

/-- The clip call, from any contents. -/
theorem clip_read (X : Valuation τ sig (Elt Ideal)) :
    StableHlo.after hostOps1_1 X (Proc.devRef .tc main_v57)
      = (minimumf (broadcastInDim S100000 ![] bcast_S_S100000 (id (X (Proc.devRef .tc main_cst_14) : FVec Ideal S_ .f32)))
          (maximumf (broadcastInDim S100000 ![] bcast_S_S100000 (id (X (Proc.devRef .tc main_cst_13) : FVec Ideal S_ .f32)))
            (X (Proc.devRef .tc main_v56) : FVec Ideal S100000 .f32)) : FVec Ideal S100000 .f32) := by
  after_results_simp
  rfl

/-- The clip call writes neither the pooled sums nor an output array of the edge region. -/
theorem keeps11_v40 (X : Valuation τ sig (Elt Ideal)) :
    StableHlo.after hostOps1_1 X (Proc.devRef .tc main_v40) = X (Proc.devRef .tc main_v40) := by
  after_results_simp
theorem keeps11_v25_1 (X : Valuation τ sig (Elt Ideal)) :
    StableHlo.after hostOps1_1 X (Proc.devRef .tc main_v25_1) = X (Proc.devRef .tc main_v25_1) := by
  after_results_simp

/-- The last stretch before the object region: the division, rounded to bf16 (the identity here). -/
theorem tail_read (X : Valuation τ sig (Elt Ideal)) :
    StableHlo.after hostOps1_2 X (Proc.devRef .tc main_v61)
      = (Host.divf (X (Proc.devRef .tc main_v40) : FVec Ideal S100000x128 .f32)
          (broadcastInDim S100000x128 ![0, 1] bcast_S100000x1_S100000x128_0_1
            (broadcastInDim S100000x1 ![0] bcast_S100000_S100000x1_0 (X (Proc.devRef .tc main_v57) : FVec Ideal S100000 .f32))) : FVec Ideal S100000x128 .f32) := by
  after_results_simp
  rfl
theorem keeps12_v25_1 (X : Valuation τ sig (Elt Ideal)) :
    StableHlo.after hostOps1_2 X (Proc.devRef .tc main_v25_1) = X (Proc.devRef .tc main_v25_1) := by
  after_results_simp

/-- The object perceptron's parameters, read from that stretch. -/
theorem v62_read (X : Valuation τ sig (Elt Ideal)) :
    StableHlo.after hostOps1_2 X (Proc.devRef .tc main_v62) = (X (Proc.devRef .tc main_arg7) : FVec Ideal S128x128 .f32) := by
  after_results_simp
  rfl
theorem v63_read (X : Valuation τ sig (Elt Ideal)) :
    StableHlo.after hostOps1_2 X (Proc.devRef .tc main_v63) = (X (Proc.devRef .tc main_arg9) : FVec Ideal S128x128 .f32) := by
  after_results_simp
  rfl
theorem v64_read (X : Valuation τ sig (Elt Ideal)) :
    StableHlo.after hostOps1_2 X (Proc.devRef .tc main_v64)
      = shapeCast S1x128 (X (Proc.devRef .tc main_arg8) : FVec Ideal S128 .f32) shapeCasts_S128_S1x128 := by
  after_results_simp
  rfl
theorem v65_read (X : Valuation τ sig (Elt Ideal)) :
    StableHlo.after hostOps1_2 X (Proc.devRef .tc main_v65)
      = shapeCast S1x128 (X (Proc.devRef .tc main_arg10) : FVec Ideal S128 .f32) shapeCasts_S128_S1x128 := by
  after_results_simp
  rfl
theorem keeps12_arg (X : Valuation τ sig (Elt Ideal)) :
    StableHlo.after hostOps1_2 X (Proc.devRef .tc main_arg7) = X (Proc.devRef .tc main_arg7)
    ∧ StableHlo.after hostOps1_2 X (Proc.devRef .tc main_arg8) = X (Proc.devRef .tc main_arg8)
    ∧ StableHlo.after hostOps1_2 X (Proc.devRef .tc main_arg9) = X (Proc.devRef .tc main_arg9)
    ∧ StableHlo.after hostOps1_2 X (Proc.devRef .tc main_arg10) = X (Proc.devRef .tc main_arg10) := by
  refine ⟨?_, ?_, ?_, ?_⟩ <;> after_results_simp

/-- The object perceptron's parameters are, where the last stretch finds them, as launched: nothing writes an argument. -/
theorem arg7_eq (c : Dev nD) : W4 m ρ c (Proc.devRef .tc main_arg7) = a7 m c :=
  ((keeps12_arg (W4 m ρ c)).1.symm.trans (W6_of_ne m ρ c main_arg7 (by decide)).symm).trans (W6_main_arg7 m ρ c)
theorem arg8_eq (c : Dev nD) : W4 m ρ c (Proc.devRef .tc main_arg8) = a8 m c :=
  ((keeps12_arg (W4 m ρ c)).2.1.symm.trans (W6_of_ne m ρ c main_arg8 (by decide)).symm).trans (W6_main_arg8 m ρ c)
theorem arg9_eq (c : Dev nD) : W4 m ρ c (Proc.devRef .tc main_arg9) = a9 m c :=
  ((keeps12_arg (W4 m ρ c)).2.2.1.symm.trans (W6_of_ne m ρ c main_arg9 (by decide)).symm).trans (W6_main_arg9 m ρ c)
theorem arg10_eq (c : Dev nD) : W4 m ρ c (Proc.devRef .tc main_arg10) = a10 m c :=
  ((keeps12_arg (W4 m ρ c)).2.2.2.symm.trans (W6_of_ne m ρ c main_arg10 (by decide)).symm).trans (W6_main_arg10 m ρ c)

open Cert.ReferenceIdeal.RefValue in
/-- The pooled features the object region finds: the reference's pooling of the edge region's first and third output
    arrays. -/
theorem v61_eq (c : Dev nD) : V5 m ρ c main_v61
    = pool (W2 m ρ c (Proc.devRef .tc main_v25_0)) (W2 m ρ c (Proc.devRef .tc main_v25_2)) (a2 m c) := by
  have h1 : W2 m ρ c (Proc.devRef .tc main_v1) = Cert.ReferenceIdeal.Read.val_main_v1 (F := Ideal) (a2 m c) :=
    (W2_of_ne m ρ c main_v1 (by decide)).trans (v1_eq m ρ c)
  have h3 : W2 m ρ c (Proc.devRef .tc main_v3) = Cert.ReferenceIdeal.Read.val_main_v3 (F := Ideal) (a2 m c) :=
    (W2_of_ne m ρ c main_v3 (by decide)).trans (v3_eq m ρ c)
  have h40 : W4 m ρ c (Proc.devRef .tc main_v40)
      = sumsR (W2 m ρ c (Proc.devRef .tc main_v25_0)) (W2 m ρ c (Proc.devRef .tc main_v25_2))
          (normR (W2 m ρ c (Proc.devRef .tc main_v1))) (normR (W2 m ρ c (Proc.devRef .tc main_v3))) :=
    (keeps11_v40 (W3 m ρ c)).trans (sums_read (W2 m ρ c))
  have h13 : W3 m ρ c (Proc.devRef .tc main_cst_13) = (constant S_ .f32 0x3F800000#32 : FVec Ideal S_ .f32) := one_read (W2 m ρ c)
  have h14 : W3 m ρ c (Proc.devRef .tc main_cst_14) = (constant S_ .f32 0x447A0000#32 : FVec Ideal S_ .f32) := thousand_read (W2 m ρ c)
  have h56 : W3 m ρ c (Proc.devRef .tc main_v56)
      = countsR (normR (W2 m ρ c (Proc.devRef .tc main_v1))) (normR (W2 m ρ c (Proc.devRef .tc main_v3))) := counts_read (W2 m ρ c)
  have h57 : W4 m ρ c (Proc.devRef .tc main_v57)
      = clipR (countsR (normR (W2 m ρ c (Proc.devRef .tc main_v1))) (normR (W2 m ρ c (Proc.devRef .tc main_v3)))) := by
    refine (clip_read (W3 m ρ c)).trans ?_
    rw [h13, h14, h56]
    rfl
  show StableHlo.after hostOps1_2 (W4 m ρ c) (Proc.devRef .tc main_v61) = _
  rw [tail_read, h40, h57, h1, h3]
  rfl

/-- The object perceptron's first weights. -/
theorem v62_eq (c : Dev nD) : V5 m ρ c main_v62 = a7 m c := (v62_read (W4 m ρ c)).trans (arg7_eq m ρ c)

/-- Its second weights. -/
theorem v63_eq (c : Dev nD) : V5 m ρ c main_v63 = a9 m c := (v63_read (W4 m ρ c)).trans (arg9_eq m ρ c)

/-- Its first bias, as one row. -/
theorem v64_apply (c : Dev nD) (k : Fin 128) : (V5 m ρ c main_v64 : Vec Ideal S1x128 .f32) (ix2 0 k) = a8 m c (ix1 k) := by
  have e : (V5 m ρ c main_v64 : Vec Ideal S1x128 .f32) = shapeCast S1x128 (a8 m c) shapeCasts_S128_S1x128 := by
    refine (v64_read (W4 m ρ c)).trans ?_
    rw [arg8_eq]
  rw [e]
  exact row_of_vec (a8 m c) _ k

/-- Its second bias, as one row. -/
theorem v65_apply (c : Dev nD) (q : Fin 128) : (V5 m ρ c main_v65 : Vec Ideal S1x128 .f32) (ix2 0 q) = a10 m c (ix1 q) := by
  have e : (V5 m ρ c main_v65 : Vec Ideal S1x128 .f32) = shapeCast S1x128 (a10 m c) shapeCasts_S128_S1x128 := by
    refine (v65_read (W4 m ρ c)).trans ?_
    rw [arg10_eq]
  rw [e]
  exact row_of_vec (a10 m c) _ q

/-! ## The two results -/

/-- The object rows of the pooled edge rows of the arguments. -/
def objOut (c : Dev nD) : FVec Ideal S100000x128 .f32 := fun i =>
  objRow (Cert.ReferenceIdeal.RefValue.pool (edgeOut m 0 (by omega) c) (edgeOut m 256 (by omega) c) (a2 m c)) (a7 m c)
    (fun k => a8 m c (ix1 k)) (a9 m c) (fun q => a10 m c (ix1 q)) (⟨(i 0).val, idx2_lt0 i⟩ : Fin 100000) (⟨(i 1).val, idx2_lt1 i⟩ : Fin 128)

/-- The edge result: the edge region's second output array, which nothing after that region writes. -/
theorem out1_eq (c : Dev nD) : W6 m ρ c (Proc.devRef .tc main_v25_1) = edgeOut m 128 (by omega) c := by
  have h8 : W2 m ρ c (Proc.devRef .tc main_v25_1) = (Gen.dat0 (V1 m ρ) c).arrAt 8 cfg0.N := W2_arr m ρ c 8
  have hk : W5 m ρ c (Proc.devRef .tc main_v25_1) = W2 m ρ c (Proc.devRef .tc main_v25_1) :=
    ((keeps12_v25_1 (W4 m ρ c)).trans (keeps11_v25_1 (W3 m ρ c))).trans (keeps1_v25_1 (W2 m ρ c))
  rw [W6_of_ne m ρ c main_v25_1 (by decide), hk, h8, Edge.arr8, band_eq]

/-- The object result: the object region's output array. -/
theorem out0_eq (c : Dev nD) : W6 m ρ c (Proc.devRef .tc main_v66) = objOut m c := by
  have h : W6 m ρ c (Proc.devRef .tc main_v66) = (Gen.dat1 (V5 m ρ) c).arrAt 5 cfg1.N := W6_arr m ρ c 5
  have h7 : W2 m ρ c (Proc.devRef .tc main_v25_0) = (Gen.dat0 (V1 m ρ) c).arrAt 7 cfg0.N := W2_arr m ρ c 7
  have h9 : W2 m ρ c (Proc.devRef .tc main_v25_2) = (Gen.dat0 (V1 m ρ) c).arrAt 9 cfg0.N := W2_arr m ρ c 9
  rw [h, Obj.arr5]
  unfold Obj.rows objOut
  funext i
  show objRow (V5 m ρ c main_v61) (V5 m ρ c main_v62) (fun k => (V5 m ρ c main_v64 : Vec Ideal S1x128 .f32) (ix2 0 k))
      (V5 m ρ c main_v63) (fun q => (V5 m ρ c main_v65 : Vec Ideal S1x128 .f32) (ix2 0 q)) _ _ = _
  rw [v61_eq, v62_eq, v63_eq, funext (v64_apply m ρ c), funext (v65_apply m ρ c), h7, h9, Edge.arr7, Edge.arr9, band_eq, band_eq]

end Cert.KernelIdeal.Glue

end
-- ==== Proof.lean ====
/-
  The kernel computes a graph convolution layer in two row-tiled perceptrons with plain host code between them, and the
  reference computes the same layer on the host alone.

  Both gather the subject and object feature rows of the 400000 edges and lay them beside the predicate features. The
  edge perceptron (384 → 128 → 384 columns, a rectifier after each layer) maps each such row to three 128-column bands.
  The first and third bands are summed per object and divided by a clipped incidence count (the same host operations in
  both programs), and the object perceptron (128 → 128 → 128) maps each pooled row to the first result; the second band is
  the second result. The kernel runs the edge perceptron on 125 tiles of 3200 rows and the object perceptron on 20 tiles of
  5000 rows, rounding to bf16 on the way, which at the ideal values is the identity. A row of a perceptron's output
  depends on that row of its input only, so each tile's output is that tile of the whole-array output; the tiles cover the
  rows; and entry by entry both programs end at the same sums of products. No law beyond reading each operation at an entry
  is needed: neither distributivity nor cancellation, so the inputs' finiteness is not used.

  The frames of the two kernel programs are the generated ones; the reference's frame is its generated run with the
  results dropped; the ideal pass rewrote nothing.
-/
import proofs.«120035_j88923002896582_1_alg».proof.Defs
import proofs.«120035_j88923002896582_1_alg».proof.Proof.Gen.Kernel
import proofs.«120035_j88923002896582_1_alg».proof.Proof.Gen.Kernel.Skeleton
import proofs.«120035_j88923002896582_1_alg».proof.Proof.Gen.Kernel.Launch
import proofs.«120035_j88923002896582_1_alg».proof.Proof.Gen.Kernel.Points
import proofs.«120035_j88923002896582_1_alg».proof.Proof.Gen.Kernel.Frame
import proofs.«120035_j88923002896582_1_alg».proof.Proof.Gen.KernelIdeal
import proofs.«120035_j88923002896582_1_alg».proof.Proof.Gen.KernelIdeal.Skeleton
import proofs.«120035_j88923002896582_1_alg».proof.Proof.Gen.KernelIdeal.Launch
import proofs.«120035_j88923002896582_1_alg».proof.Proof.Gen.KernelIdeal.Points
import proofs.«120035_j88923002896582_1_alg».proof.Proof.Gen.KernelIdeal.Frame
import proofs.«120035_j88923002896582_1_alg».proof.Proof.Gen.ReferenceIdeal
import proofs.«120035_j88923002896582_1_alg».proof.Proof.Gen.ReferenceIdeal.Run
import proofs.«120035_j88923002896582_1_alg».proof.Proof.Gen.ReferenceIdeal.Read
import proofs.«120035_j88923002896582_1_alg».proof.Proof.Gen.Pre_finite_inputs
import proofs.«120035_j88923002896582_1_alg».proof.Proof.KernelRun
import proofs.«120035_j88923002896582_1_alg».proof.Proof.KernelGlue
import proofs.«120035_j88923002896582_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged: its generated run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the object rows of the pooled first and third bands of the edge rows as their first result and
    the second band of the edge rows as their second, of arguments that agree. -/
theorem algebraic : Cert.algebraic_KernelIdeal_ReferenceIdeal := by
  intro m ρ m' ρ' _ hagree
  refine ⟨fun c => Cert.KernelIdeal.Glue.objOut m c, fun c => Cert.KernelIdeal.Glue.edgeOut m 128 (by omega) c, ?_, ?_⟩
  · exact (θ_run Cert.KernelIdeal.defs _ _).mono
      (fun r h c => ⟨(h c).1.trans (Cert.KernelIdeal.Glue.out0_eq m ρ c), (h c).2.1.trans (Cert.KernelIdeal.Glue.out1_eq m ρ c),
        (h c).2.2⟩)
      (Cert.KernelIdeal.Named.run_named (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9, e10⟩ := hagree c
    refine ⟨(h c).1.trans ?_, (h c).2.1.trans ?_, (h c).2.2⟩
    · rw [Cert.ReferenceIdeal.Read.val_main_v76_eq, Cert.ReferenceIdeal.RefValue.result0, e0, e1, e2, e3, e4, e5, e6, e7, e8, e9, e10]
      rfl
    · refine (Cert.ReferenceIdeal.Read.val_main_v30_eq (F := Ideal) _ _ _ _ _ _ _).trans ?_
      rw [Cert.ReferenceIdeal.RefValue.result1, e0, e1, e2, e3, e4, e5, e6]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
